-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x2048 : Shape := ⟨3, ![1, 1, 2048]⟩
abbrev S8x1x2048 : Shape := ⟨3, ![8, 1, 2048]⟩
abbrev S8x2048x2048 : Shape := ⟨3, ![8, 2048, 2048]⟩
abbrev S8x2048 : Shape := ⟨2, ![8, 2048]⟩
abbrev S1000x2048 : Shape := ⟨2, ![1000, 2048]⟩
abbrev S1000 : Shape := ⟨1, ![1000]⟩
abbrev S_ : Shape := ⟨0, ![]⟩

class Facts : Prop where
  bcast_S_S1x1x2048 : S_.BroadcastsInDim S1x1x2048 (![] : Fin 0 → Fin S1x1x2048.rank)
  reducesTo_S1x1x2048_S_d0_1_2 : S1x1x2048.ReducesTo [0, 1, 2] S_
  h_S_ : 0 < S_.numel
  bcast_S_S8x1x2048 : S_.BroadcastsInDim S8x1x2048 (![] : Fin 0 → Fin S8x1x2048.rank)
  reducesTo_S8x1x2048_S_d0_1_2 : S8x1x2048.ReducesTo [0, 1, 2] S_
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S8x2048 : S_.BroadcastsInDim S8x2048 (![] : Fin 0 → Fin S8x2048.rank)
  reducesTo_S8x2048_S_d0_1 : S8x2048.ReducesTo [0, 1] S_
  bcast_S_S1000x2048 : S_.BroadcastsInDim S1000x2048 (![] : Fin 0 → Fin S1000x2048.rank)
  reducesTo_S1000x2048_S_d0_1 : S1000x2048.ReducesTo [0, 1] S_
  bcast_S_S1000 : S_.BroadcastsInDim S1000 (![] : Fin 0 → Fin S1000.rank)
  reducesTo_S1000_S_d0 : S1000.ReducesTo [0] S_

variable [Facts]

def fn_part4 {F : FTy → Type} [FloatOps F] (main_arg14 : FVec F S1000x2048 .f32) (main_arg15 : FVec F S1000 .f32) (main_v63 : IVec S_ 1) (main_v67 : IVec S_ 1) : IVec S_ 1 :=
  let main_v68 : IVec S_ 1 := andi main_v63 main_v67
  let main_v69 : FVec F S1000x2048 .f32 := Host.absf main_arg14
  let main_cst_26 : FVec F S_ .f32 := constant S_ .f32 0x7F800000#32
  let main_v70 : FVec F S1000x2048 .f32 := broadcastInDim S1000x2048 ![] bcast_S_S1000x2048 main_cst_26
  let main_v71 : IVec S1000x2048 1 := cmpf .olt main_v69 main_v70
  let main_c_27 : IVec S_ 1 := constantI S_ 1 1#1
  let main_v72 : IVec S_ 1 := (fun x v => Host.reduce IntOp.andi x v reducesTo_S1000x2048_S_d0_1 h_S_) main_v71 main_c_27
  let main_v73 : IVec S_ 1 := andi main_v68 main_v72
  let main_v74 : FVec F S1000 .f32 := Host.absf main_arg15
  let main_cst_28 : FVec F S_ .f32 := constant S_ .f32 0x7F800000#32
  let main_v75 : FVec F S1000 .f32 := broadcastInDim S1000 ![] bcast_S_S1000 main_cst_28
  let main_v76 : IVec S1000 1 := cmpf .olt main_v74 main_v75
  let main_c_29 : IVec S_ 1 := constantI S_ 1 1#1
  let main_v77 : IVec S_ 1 := (fun x v => Host.reduce IntOp.andi x v reducesTo_S1000_S_d0 h_S_) main_v76 main_c_29
  let main_v78 : IVec S_ 1 := andi main_v73 main_v77
  main_v78

def fn_part3 {F : FTy → Type} [FloatOps F] (main_arg11 : FVec F S8x2048 .f32) (main_arg12 : FVec F S8x2048x2048 .f32) (main_arg13 : FVec F S8x2048 .f32) (main_arg14 : FVec F S1000x2048 .f32) (main_arg15 : FVec F S1000 .f32) (main_v48 : IVec S_ 1) (main_v49 : FVec F S8x2048x2048 .f32) (main_v50 : FVec F S8x2048x2048 .f32) : IVec S_ 1 :=
  let main_v51 : IVec S8x2048x2048 1 := cmpf .olt main_v49 main_v50
  let main_c_19 : IVec S_ 1 := constantI S_ 1 1#1
  let main_v52 : IVec S_ 1 := (fun x v => Host.reduce IntOp.andi x v reducesTo_S8x2048x2048_S_d0_1_2 h_S_) main_v51 main_c_19
  let main_v53 : IVec S_ 1 := andi main_v48 main_v52
  let main_v54 : FVec F S8x2048 .f32 := Host.absf main_arg11
  let main_cst_20 : FVec F S_ .f32 := constant S_ .f32 0x7F800000#32
  let main_v55 : FVec F S8x2048 .f32 := broadcastInDim S8x2048 ![] bcast_S_S8x2048 main_cst_20
  let main_v56 : IVec S8x2048 1 := cmpf .olt main_v54 main_v55
  let main_c_21 : IVec S_ 1 := constantI S_ 1 1#1
  let main_v57 : IVec S_ 1 := (fun x v => Host.reduce IntOp.andi x v reducesTo_S8x2048_S_d0_1 h_S_) main_v56 main_c_21
  let main_v58 : IVec S_ 1 := andi main_v53 main_v57
  let main_v59 : FVec F S8x2048x2048 .f32 := Host.absf main_arg12
  let main_cst_22 : FVec F S_ .f32 := constant S_ .f32 0x7F800000#32
  let main_v60 : FVec F S8x2048x2048 .f32 := broadcastInDim S8x2048x2048 ![] bcast_S_S8x2048x2048 main_cst_22
  let main_v61 : IVec S8x2048x2048 1 := cmpf .olt main_v59 main_v60
  let main_c_23 : IVec S_ 1 := constantI S_ 1 1#1
  let main_v62 : IVec S_ 1 := (fun x v => Host.reduce IntOp.andi x v reducesTo_S8x2048x2048_S_d0_1_2 h_S_) main_v61 main_c_23
  let main_v63 : IVec S_ 1 := andi main_v58 main_v62
  let main_v64 : FVec F S8x2048 .f32 := Host.absf main_arg13
  let main_cst_24 : FVec F S_ .f32 := constant S_ .f32 0x7F800000#32
  let main_v65 : FVec F S8x2048 .f32 := broadcastInDim S8x2048 ![] bcast_S_S8x2048 main_cst_24
  let main_v66 : IVec S8x2048 1 := cmpf .olt main_v64 main_v65
  let main_c_25 : IVec S_ 1 := constantI S_ 1 1#1
  let main_v67 : IVec S_ 1 := (fun x v => Host.reduce IntOp.andi x v reducesTo_S8x2048_S_d0_1 h_S_) main_v66 main_c_25
  fn_part4 (F := F) main_arg14 main_arg15 main_v63 main_v67

def fn_part2 {F : FTy → Type} [FloatOps F] (main_arg7 : FVec F S8x2048 .f32) (main_arg8 : FVec F S8x2048x2048 .f32) (main_arg9 : FVec F S8x2048 .f32) (main_arg10 : FVec F S8x2048x2048 .f32) (main_arg11 : FVec F S8x2048 .f32) (main_arg12 : FVec F S8x2048x2048 .f32) (main_arg13 : FVec F S8x2048 .f32) (main_arg14 : FVec F S1000x2048 .f32) (main_arg15 : FVec F S1000 .f32) (main_v33 : IVec S_ 1) : IVec S_ 1 :=
  let main_v34 : FVec F S8x2048 .f32 := Host.absf main_arg7
  let main_cst_12 : FVec F S_ .f32 := constant S_ .f32 0x7F800000#32
  let main_v35 : FVec F S8x2048 .f32 := broadcastInDim S8x2048 ![] bcast_S_S8x2048 main_cst_12
  let main_v36 : IVec S8x2048 1 := cmpf .olt main_v34 main_v35
  let main_c_13 : IVec S_ 1 := constantI S_ 1 1#1
  let main_v37 : IVec S_ 1 := (fun x v => Host.reduce IntOp.andi x v reducesTo_S8x2048_S_d0_1 h_S_) main_v36 main_c_13
  let main_v38 : IVec S_ 1 := andi main_v33 main_v37
  let main_v39 : FVec F S8x2048x2048 .f32 := Host.absf main_arg8
  let main_cst_14 : FVec F S_ .f32 := constant S_ .f32 0x7F800000#32
  let main_v40 : FVec F S8x2048x2048 .f32 := broadcastInDim S8x2048x2048 ![] bcast_S_S8x2048x2048 main_cst_14
  let main_v41 : IVec S8x2048x2048 1 := cmpf .olt main_v39 main_v40
  let main_c_15 : IVec S_ 1 := constantI S_ 1 1#1
  let main_v42 : IVec S_ 1 := (fun x v => Host.reduce IntOp.andi x v reducesTo_S8x2048x2048_S_d0_1_2 h_S_) main_v41 main_c_15
  let main_v43 : IVec S_ 1 := andi main_v38 main_v42
  let main_v44 : FVec F S8x2048 .f32 := Host.absf main_arg9
  let main_cst_16 : FVec F S_ .f32 := constant S_ .f32 0x7F800000#32
  let main_v45 : FVec F S8x2048 .f32 := broadcastInDim S8x2048 ![] bcast_S_S8x2048 main_cst_16
  let main_v46 : IVec S8x2048 1 := cmpf .olt main_v44 main_v45
  let main_c_17 : IVec S_ 1 := constantI S_ 1 1#1
  let main_v47 : IVec S_ 1 := (fun x v => Host.reduce IntOp.andi x v reducesTo_S8x2048_S_d0_1 h_S_) main_v46 main_c_17
  let main_v48 : IVec S_ 1 := andi main_v43 main_v47
  let main_v49 : FVec F S8x2048x2048 .f32 := Host.absf main_arg10
  let main_cst_18 : FVec F S_ .f32 := constant S_ .f32 0x7F800000#32
  let main_v50 : FVec F S8x2048x2048 .f32 := broadcastInDim S8x2048x2048 ![] bcast_S_S8x2048x2048 main_cst_18
  fn_part3 (F := F) main_arg11 main_arg12 main_arg13 main_arg14 main_arg15 main_v48 main_v49 main_v50

def fn_part1 {F : FTy → Type} [FloatOps F] (main_arg4 : FVec F S8x2048x2048 .f32) (main_arg5 : FVec F S8x2048 .f32) (main_arg6 : FVec F S8x2048x2048 .f32) (main_arg7 : FVec F S8x2048 .f32) (main_arg8 : FVec F S8x2048x2048 .f32) (main_arg9 : FVec F S8x2048 .f32) (main_arg10 : FVec F S8x2048x2048 .f32) (main_arg11 : FVec F S8x2048 .f32) (main_arg12 : FVec F S8x2048x2048 .f32) (main_arg13 : FVec F S8x2048 .f32) (main_arg14 : FVec F S1000x2048 .f32) (main_arg15 : FVec F S1000 .f32) (main_v13 : IVec S_ 1) (main_v16 : IVec S8x2048 1) : IVec S_ 1 :=
  let main_c_5 : IVec S_ 1 := constantI S_ 1 1#1
  let main_v17 : IVec S_ 1 := (fun x v => Host.reduce IntOp.andi x v reducesTo_S8x2048_S_d0_1 h_S_) main_v16 main_c_5
  let main_v18 : IVec S_ 1 := andi main_v13 main_v17
  let main_v19 : FVec F S8x2048x2048 .f32 := Host.absf main_arg4
  let main_cst_6 : FVec F S_ .f32 := constant S_ .f32 0x7F800000#32
  let main_v20 : FVec F S8x2048x2048 .f32 := broadcastInDim S8x2048x2048 ![] bcast_S_S8x2048x2048 main_cst_6
  let main_v21 : IVec S8x2048x2048 1 := cmpf .olt main_v19 main_v20
  let main_c_7 : IVec S_ 1 := constantI S_ 1 1#1
  let main_v22 : IVec S_ 1 := (fun x v => Host.reduce IntOp.andi x v reducesTo_S8x2048x2048_S_d0_1_2 h_S_) main_v21 main_c_7
  let main_v23 : IVec S_ 1 := andi main_v18 main_v22
  let main_v24 : FVec F S8x2048 .f32 := Host.absf main_arg5
  let main_cst_8 : FVec F S_ .f32 := constant S_ .f32 0x7F800000#32
  let main_v25 : FVec F S8x2048 .f32 := broadcastInDim S8x2048 ![] bcast_S_S8x2048 main_cst_8
  let main_v26 : IVec S8x2048 1 := cmpf .olt main_v24 main_v25
  let main_c_9 : IVec S_ 1 := constantI S_ 1 1#1
  let main_v27 : IVec S_ 1 := (fun x v => Host.reduce IntOp.andi x v reducesTo_S8x2048_S_d0_1 h_S_) main_v26 main_c_9
  let main_v28 : IVec S_ 1 := andi main_v23 main_v27
  let main_v29 : FVec F S8x2048x2048 .f32 := Host.absf main_arg6
  let main_cst_10 : FVec F S_ .f32 := constant S_ .f32 0x7F800000#32
  let main_v30 : FVec F S8x2048x2048 .f32 := broadcastInDim S8x2048x2048 ![] bcast_S_S8x2048x2048 main_cst_10
  let main_v31 : IVec S8x2048x2048 1 := cmpf .olt main_v29 main_v30
  let main_c_11 : IVec S_ 1 := constantI S_ 1 1#1
  let main_v32 : IVec S_ 1 := (fun x v => Host.reduce IntOp.andi x v reducesTo_S8x2048x2048_S_d0_1_2 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S1x1x2048 .f32) (main_arg1 : FVec F S8x1x2048 .f32) (main_arg2 : FVec F S8x2048x2048 .f32) (main_arg3 : FVec F S8x2048 .f32) (main_arg4 : FVec F S8x2048x2048 .f32) (main_arg5 : FVec F S8x2048 .f32) (main_arg6 : FVec F S8x2048x2048 .f32) (main_arg7 : FVec F S8x2048 .f32) (main_arg8 : FVec F S8x2048x2048 .f32) (main_arg9 : FVec F S8x2048 .f32) (main_arg10 : FVec F S8x2048x2048 .f32) (main_arg11 : FVec F S8x2048 .f32) (main_arg12 : FVec F S8x2048x2048 .f32) (main_arg13 : FVec F S8x2048 .f32) (main_arg14 : FVec F S1000x2048 .f32) (main_arg15 : FVec F S1000 .f32) : IVec S_ 1 :=
  let main_v0 : FVec F S1x1x2048 .f32 := Host.absf main_arg0
  let main_cst : FVec F S_ .f32 := constant S_ .f32 0x7F800000#32
  let main_v1 : FVec F S1x1x2048 .f32 := broadcastInDim S1x1x2048 ![] bcast_S_S1x1x2048 main_cst
  let main_v2 : IVec S1x1x2048 1 := cmpf .olt main_v0 main_v1
  let main_c : IVec S_ 1 := constantI S_ 1 1#1
  let main_v3 : IVec S_ 1 := (fun x v => Host.reduce IntOp.andi x v reducesTo_S1x1x2048_S_d0_1_2 h_S_) main_v2 main_c
  let main_v4 : FVec F S8x1x2048 .f32 := Host.absf main_arg1
  let main_cst_0 : FVec F S_ .f32 := constant S_ .f32 0x7F800000#32
  let main_v5 : FVec F S8x1x2048 .f32 := broadcastInDim S8x1x2048 ![] bcast_S_S8x1x2048 main_cst_0
  let main_v6 : IVec S8x1x2048 1 := cmpf .olt main_v4 main_v5
  let main_c_1 : IVec S_ 1 := constantI S_ 1 1#1
  let main_v7 : IVec S_ 1 := (fun x v => Host.reduce IntOp.andi x v reducesTo_S8x1x2048_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S8x2048 .f32 := Host.absf main_arg3
  let main_cst_4 : FVec F S_ .f32 := constant S_ .f32 0x7F800000#32
  let main_v15 : FVec F S8x2048 .f32 := broadcastInDim S8x2048 ![] bcast_S_S8x2048 main_cst_4
  let main_v16 : IVec S8x2048 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S1x1x2048 : Shape := ⟨3, ![1, 1, 2048]⟩
abbrev S8x1x2048 : Shape := ⟨3, ![8, 1, 2048]⟩
abbrev S8x2048x2048 : Shape := ⟨3, ![8, 2048, 2048]⟩
abbrev S8x2048 : Shape := ⟨2, ![8, 2048]⟩
abbrev S1000x2048 : Shape := ⟨2, ![1000, 2048]⟩
abbrev S1000 : Shape := ⟨1, ![1000]⟩
abbrev S1x2048 : Shape := ⟨2, ![1, 2048]⟩
abbrev S7x1x2048 : Shape := ⟨3, ![7, 1, 2048]⟩
abbrev S1x512x2048 : Shape := ⟨3, ![1, 512, 2048]⟩
abbrev S1x1x512 : Shape := ⟨3, ![1, 1, 512]⟩
abbrev S2048 : Shape := ⟨1, ![2048]⟩
abbrev S512x2048 : Shape := ⟨2, ![512, 2048]⟩
abbrev S1x512 : Shape := ⟨2, ![1, 512]⟩
abbrev S512 : Shape := ⟨1, ![512]⟩
abbrev S_ : Shape := ⟨0, ![]⟩
abbrev S1024x2048 : Shape := ⟨2, ![1024, 2048]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S1x1000 : Shape := ⟨2, ![1, 1000]⟩

abbrev nBuf : Space → Nat
  | .hbm => 36
  | .vmem => 34
  | .smem => 0
  | _ => 0

abbrev bufTy : (tb : Table) → Fin (tcTables nBuf tb) → BufTy
  | .hbm, ⟨0, _⟩ => ⟨S1x1x2048, .f32⟩
  | .hbm, ⟨1, _⟩ => ⟨S8x1x2048, .f32⟩
  | .hbm, ⟨2, _⟩ => ⟨S8x2048x2048, .f32⟩
  | .hbm, ⟨3, _⟩ => ⟨S8x2048, .f32⟩
  | .hbm, ⟨4, _⟩ => ⟨S8x2048x2048, .f32⟩
  | .hbm, ⟨5, _⟩ => ⟨S8x2048, .f32⟩
  | .hbm, ⟨6, _⟩ => ⟨S8x2048x2048, .f32⟩
  | .hbm, ⟨7, _⟩ => ⟨S8x2048, .f32⟩
  | .hbm, ⟨8, _⟩ => ⟨S8x2048x2048, .f32⟩
  | .hbm, ⟨9, _⟩ => ⟨S8x2048, .f32⟩
  | .hbm, ⟨10, _⟩ => ⟨S8x2048x2048, .f32⟩
  | .hbm, ⟨11, _⟩ => ⟨S8x2048, .f32⟩
  | .hbm, ⟨12, _⟩ => ⟨S8x2048x2048, .f32⟩
  | .hbm, ⟨13, _⟩ => ⟨S8x2048, .f32⟩
  | .hbm, ⟨14, _⟩ => ⟨S1000x2048, .f32⟩
  | .hbm, ⟨15, _⟩ => ⟨S1000, .f32⟩
  | .hbm, ⟨16, _⟩ => ⟨S1x2048, .f32⟩
  | .hbm, ⟨17, _⟩ => ⟨S1x1x2048, .f32⟩
  | .hbm, ⟨18, _⟩ => ⟨S7x1x2048, .f32⟩
  | .hbm, ⟨19, _⟩ => ⟨S8x1x2048, .f32⟩
  | .hbm, ⟨20, _⟩ => ⟨S8x1x2048, .f32⟩
  | .hbm, ⟨21, _⟩ => ⟨S8x1x2048, .f32⟩
  | .hbm, ⟨22, _⟩ => ⟨S8x1x2048, .f32⟩
  | .hbm, ⟨23, _⟩ => ⟨S8x1x2048, .f32⟩
  | .hbm, ⟨24, _⟩ => ⟨S8x1x2048, .f32⟩
  | .hbm, ⟨25, _⟩ => ⟨S8x1x2048, .f32⟩
  | .hbm, ⟨26, _⟩ => ⟨S8x1x2048, .f32⟩
  | .hbm, ⟨27, _⟩ => ⟨S_, .i32⟩
  | .hbm, ⟨28, _⟩ => ⟨S_, .f32⟩
  | .hbm, ⟨29, _⟩ => ⟨S1024x2048, .f32⟩
  | .hbm, ⟨30, _⟩ => ⟨S_, .i32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S1x1024, .f32⟩
  | .hbm, ⟨35, _⟩ => ⟨S1x1000, .f32⟩
  | .local _ .vmem, ⟨0, _⟩ => ⟨S1x1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .f32⟩
  | .local _ .vmem, ⟨7, _⟩ => ⟨S1x512x2048, .f32⟩
  | .local _ .vmem, ⟨8, _⟩ => ⟨S1x512x2048, .f32⟩
  | .local _ .vmem, ⟨9, _⟩ => ⟨S1x512x2048, .f32⟩
  | .local _ .vmem, ⟨10, _⟩ => ⟨S1x512x2048, .f32⟩
  | .local _ .vmem, ⟨11, _⟩ => ⟨S1x512x2048, .f32⟩
  | .local _ .vmem, ⟨12, _⟩ => ⟨S1x512x2048, .f32⟩
  | .local _ .vmem, ⟨13, _⟩ => ⟨S1x512x2048, .f32⟩
  | .local _ .vmem, ⟨14, _⟩ => ⟨S1x512x2048, .f32⟩
  | .local _ .vmem, ⟨15, _⟩ => ⟨S1x512x2048, .f32⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S1x1x512, .f32⟩
  | .local _ .vmem, ⟨20, _⟩ => ⟨S1x1x512, .f32⟩
  | .local _ .vmem, ⟨21, _⟩ => ⟨S1x1x512, .f32⟩
  | .local _ .vmem, ⟨22, _⟩ => ⟨S1x1x512, .f32⟩
  | .local _ .vmem, ⟨23, _⟩ => ⟨S1x1x512, .f32⟩
  | .local _ .vmem, ⟨24, _⟩ => ⟨S1x1x512, .f32⟩
  | .local _ .vmem, ⟨25, _⟩ => ⟨S1x1x512, .f32⟩
  | .local _ .vmem, ⟨26, _⟩ => ⟨S1x1x512, .f32⟩
  | .local _ .vmem, ⟨27, _⟩ => ⟨S1x1x512, .f32⟩
  | .local _ .vmem, ⟨28, _⟩ => ⟨S1x1x512, .f32⟩
  | .local _ .vmem, ⟨29, _⟩ => ⟨S1x1x512, .f32⟩
  | .local _ .vmem, ⟨30, _⟩ => ⟨S1x1x2048, .f32⟩
  | .local _ .vmem, ⟨31, _⟩ => ⟨S1024x2048, .f32⟩
  | .local _ .vmem, ⟨32, _⟩ => ⟨S1x1024, .f32⟩
  | .local _ .vmem, ⟨33, _⟩ => ⟨S1x1024, .f32⟩
  | _, _ => ⟨S1x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_call0_v0 : Ref sig .tc := ⟨.hbm, 28, rfl⟩
abbrev main_v11 : Ref sig .tc := ⟨.hbm, 29, rfl⟩
abbrev main_c_0 : Ref sig .tc := ⟨.hbm, 30, rfl⟩
abbrev main_call1_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc1_stg0_0 : Ref sig .tc := ⟨.vmem, 30, rfl⟩
abbrev cc1_stg1_0 : Ref sig .tc := ⟨.vmem, 31, rfl⟩
abbrev cc1_stg2_0 : Ref sig .tc := ⟨.vmem, 32, rfl⟩
abbrev cc1_stg3_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc1_sem0_0 : DmaSem sig := 30
abbrev cc1_sem1_0 : DmaSem sig := 31
abbrev cc1_sem2_0 : DmaSem sig := 32
abbrev cc1_sem3_0 : DmaSem sig := 33

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v55 : BitVec 32 := Scalar.muli arg1 c512_i32
  v55
def k0_off1 (i : grid0.Coords) : Fin 3 → Nat :=
  let c0_46 : Index := 0#32
  let c0_47 : Index := 0#32
  let arg1 : BitVec 32 := BitVec.ofNat 32 (i 1).val
  let c512_i32 : BitVec 32 := 512#32
  let v55 : BitVec 32 := Scalar.muli arg1 c512_i32
  let v56 : BitVec 32 := v55
  let v57 : Index := Scalar.indexCast v56
  ![0, 0, v57.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev grid1 : Pipeline.Grid := ⟨1, ![1], ![false]⟩

def cc1_transform_0 (i : grid1.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  shapeCasts_S1x1x2048_S1x2048 : S1x1x2048.ShapeCasts S1x2048
  bcast_S1x2048_S1x1x2048_1_2 : S1x2048.BroadcastsInDim S1x1x2048 (![1, 2] : Fin 2 → Fin S1x1x2048.rank)
  slices_S8x1x2048_S7x1x2048_0_0_0 : S8x1x2048.Slices ![0, 0, 0] S7x1x2048
  concatenates_S1x1x2048_S7x1x2048_S8x1x2048_d0 : Shape.Concatenates [S1x1x2048, S7x1x2048] S8x1x2048 0
  bcast_S8x2048_S8x1x2048_0_2 : S8x2048.BroadcastsInDim S8x1x2048 (![0, 2] : Fin 2 → Fin S8x1x2048.rank)
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x2048 : S2048.ShapeCasts S1x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S1x512_S512 : S1x512.ShapeCasts S512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x1x512 : S512.ShapeCasts S1x1x512
  pads_S1000x2048_S1024x2048_0240_000 : S1000x2048.Pads (![0, 0] : Fin 2 → Nat) ![24, 0] ![0, 0] S1024x2048
  h_S_ : 0 < S_.numel
  pads_S1000_S1024_0240 : S1000.Pads (![0] : Fin 1 → Nat) ![24] ![0] S1024
  bcast_S1024_S1x1024_1 : S1024.BroadcastsInDim S1x1024 (![1] : Fin 1 → Fin S1x1024.rank)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1x1024_d1_w32 : S1x1024.Iotas .tc 32 [1]
  reduces_S1x1024_S1 : S1x1024.Reduces [1] S1
  shapeCasts_S1_S1x1 : S1.ShapeCasts S1x1
  broadcasts_S1x1_S1x1024 : S1x1.Broadcasts S1x1024
  slices_S1x1024_S1x1000_0_0 : S1x1024.Slices ![0, 0] S1x1000
  dot_S1x2048_S512x2048_S1x512_1_1_0_0_n_n_wf : DotDims.WF S1x2048 S512x2048 S1x512 [1] [1] [0] [0] [] []
  dot_S1x2048_S1024x2048_S1x1024_1_1_0_0_n_n_wf : DotDims.WF S1x2048 S1024x2048 S1x1024 [1] [1] [0] [0] [] []
  hrank0 : 0 < grid0.rank
  k0_mult1_dvd : ∀ i : grid0.Coords, 512 ∣ (k0_mult1 i).toNat
  k0_off1_inb : ∀ i : grid0.Coords, ∀ a, (k0_off1 i) a + S1x1x512.size a ≤ S1x1x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048.size a ≤ S8x1x2048.size a
  hwx0_0 : ∀ i : grid0.Coords, EltTy.bits .f32 = 32 ∨ (Rect.block (s := S8x1x2048) S1x1x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S8x1x2048.size a
  hwx0_1 : ∀ i : grid0.Coords, EltTy.bits .f32 = 32 ∨ (Rect.block (s := S8x1x2048) S1x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x2048x2048.size a
  hwx0_2 : ∀ i : grid0.Coords, EltTy.bits .f32 = 32 ∨ (Rect.block (s := S8x2048x2048) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .f32 = 32 ∨ (Rect.block (s := S8x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x2048x2048.size a
  hwx0_4 : ∀ i : grid0.Coords, EltTy.bits .f32 = 32 ∨ (Rect.block (s := S8x2048x2048) S1x512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S8x2048x2048.size a
  hwx0_5 : ∀ i : grid0.Coords, EltTy.bits .f32 = 32 ∨ (Rect.block (s := S8x2048x2048) S1x512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x2048.size a ≤ S8x2048x2048.size a
  hwx0_6 : ∀ i : grid0.Coords, EltTy.bits .f32 = 32 ∨ (Rect.block (s := S8x2048x2048) S1x512x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x2048.size a ≤ S8x2048x2048.size a
  hwx0_7 : ∀ i : grid0.Coords, EltTy.bits .f32 = 32 ∨ (Rect.block (s := S8x2048x2048) S1x512x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x512.size a ≤ S8x1x2048.size a
  hwx0_8 : ∀ i : grid0.Coords, EltTy.bits .f32 = 32 ∨ (Rect.block (s := S8x1x2048) S1x1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x512.size a ≤ S8x1x2048.size a
  hwx0_9 : ∀ i : grid0.Coords, EltTy.bits .f32 = 32 ∨ (Rect.block (s := S8x1x2048) S1x1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x512.size a ≤ S8x1x2048.size a
  hwx0_10 : ∀ i : grid0.Coords, EltTy.bits .f32 = 32 ∨ (Rect.block (s := S8x1x2048) S1x1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x512.size a ≤ S8x1x2048.size a
  hwx0_11 : ∀ i : grid0.Coords, EltTy.bits .f32 = 32 ∨ (Rect.block (s := S8x1x2048) S1x1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x512.size a ≤ S8x1x2048.size a
  hwx0_12 : ∀ i : grid0.Coords, EltTy.bits .f32 = 32 ∨ (Rect.block (s := S8x1x2048) S1x1x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x512.size a ≤ S8x1x2048.size a
  hwx0_13 : ∀ i : grid0.Coords, EltTy.bits .f32 = 32 ∨ (Rect.block (s := S8x1x2048) S1x1x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x512.size a ≤ S8x1x2048.size a
  hwx0_14 : ∀ i : grid0.Coords, EltTy.bits .f32 = 32 ∨ (Rect.block (s := S8x1x2048) S1x1x512.size (cc0_transform_14 i) (hinb0_14 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S1x1x2048.size a ≤ S8x1x2048.size a
  hwx1_0 : ∀ i : grid1.Coords, EltTy.bits .f32 = 32 ∨ (Rect.block (s := S8x1x2048) S1x1x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x2048.size a
  hwx1_1 : ∀ i : grid1.Coords, EltTy.bits .f32 = 32 ∨ (Rect.block (s := S1024x2048) S1024x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)

variable [Facts₀]

def dot_S1x2048_S512x2048_S1x512_1_1_0_0_n_n : DotDims S1x2048 S512x2048 S1x512 where
  lhsContracting := [1]
  rhsContracting := [1]
  lhsNonContracting := [0]
  rhsNonContracting := [0]
  lhsBatch := []
  rhsBatch := []
  wf := dot_S1x2048_S512x2048_S1x512_1_1_0_0_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf

abbrev win0_0 : Pipeline.Window sig grid0 :=
  Pipeline.Window.ofSpec (Memref.whole main_v3) S1x1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1x512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S1x512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S1x512x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S1x512x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x1x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x1x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v7) S1x1x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8) S1x1x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v9) S1x1x512.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v10) S1x1x512.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v10) S1x1x2048.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x1024.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x1x2048 : Shape := ⟨3, ![1, 1, 2048]⟩
abbrev S8x1x2048 : Shape := ⟨3, ![8, 1, 2048]⟩
abbrev S8x2048x2048 : Shape := ⟨3, ![8, 2048, 2048]⟩
abbrev S8x2048 : Shape := ⟨2, ![8, 2048]⟩
abbrev S1000x2048 : Shape := ⟨2, ![1000, 2048]⟩
abbrev S1000 : Shape := ⟨1, ![1000]⟩
abbrev S1x2048 : Shape := ⟨2, ![1, 2048]⟩
abbrev S7x1x2048 : Shape := ⟨3, ![7, 1, 2048]⟩
abbrev S_ : Shape := ⟨0, ![]⟩
abbrev S2048x1000 : Shape := ⟨2, ![2048, 1000]⟩
abbrev S1x1000 : Shape := ⟨2, ![1, 1000]⟩
abbrev S1 : Shape := ⟨1, ![1]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S1x1x2048, .f32⟩
  | .hbm, ⟨1, _⟩ => ⟨S8x1x2048, .f32⟩
  | .hbm, ⟨2, _⟩ => ⟨S8x2048x2048, .f32⟩
  | .hbm, ⟨3, _⟩ => ⟨S8x2048, .f32⟩
  | .hbm, ⟨4, _⟩ => ⟨S8x2048x2048, .f32⟩
  | .hbm, ⟨5, _⟩ => ⟨S8x2048, .f32⟩
  | .hbm, ⟨6, _⟩ => ⟨S8x2048x2048, .f32⟩
  | .hbm, ⟨7, _⟩ => ⟨S8x2048, .f32⟩
  | .hbm, ⟨8, _⟩ => ⟨S8x2048x2048, .f32⟩
  | .hbm, ⟨9, _⟩ => ⟨S8x2048, .f32⟩
  | .hbm, ⟨10, _⟩ => ⟨S8x2048x2048, .f32⟩
  | .hbm, ⟨11, _⟩ => ⟨S8x2048, .f32⟩
  | .hbm, ⟨12, _⟩ => ⟨S8x2048x2048, .f32⟩
  | .hbm, ⟨13, _⟩ => ⟨S8x2048, .f32⟩
  | .hbm, ⟨14, _⟩ => ⟨S1000x2048, .f32⟩
  | .hbm, ⟨15, _⟩ => ⟨S1000, .f32⟩
  | .hbm, ⟨16, _⟩ => ⟨S1x2048, .f32⟩
  | .hbm, ⟨17, _⟩ => ⟨S1x1x2048, .f32⟩
  | .hbm, ⟨18, _⟩ => ⟨S7x1x2048, .f32⟩
  | .hbm, ⟨19, _⟩ => ⟨S8x1x2048, .f32⟩
  | .hbm, ⟨20, _⟩ => ⟨S8x1x2048, .f32⟩
  | .hbm, ⟨21, _⟩ => ⟨S8x1x2048, .f32⟩
  | .hbm, ⟨22, _⟩ => ⟨S8x1x2048, .f32⟩
  | .hbm, ⟨23, _⟩ => ⟨S8x1x2048, .f32⟩
  | .hbm, ⟨24, _⟩ => ⟨S8x1x2048, .f32⟩
  | .hbm, ⟨25, _⟩ => ⟨S8x1x2048, .f32⟩
  | .hbm, ⟨26, _⟩ => ⟨S8x1x2048, .f32⟩
  | .hbm, ⟨27, _⟩ => ⟨S8x1x2048, .f32⟩
  | .hbm, ⟨28, _⟩ => ⟨S8x1x2048, .f32⟩
  | .hbm, ⟨29, _⟩ => ⟨S_, .f32⟩
  | .hbm, ⟨30, _⟩ => ⟨S8x1x2048, .f32⟩
  | .hbm, ⟨31, _⟩ => ⟨S8x1x2048, .f32⟩
  | .hbm, ⟨32, _⟩ => ⟨S_, .f32⟩
  | .hbm, ⟨33, _⟩ => ⟨S8x1x2048, .f32⟩
  | .hbm, ⟨34, _⟩ => ⟨S8x1x2048, .f32⟩
  | .hbm, ⟨35, _⟩ => ⟨S8x1x2048, .f32⟩
  | .hbm, ⟨36, _⟩ => ⟨S8x1x2048, .f32⟩
  | .hbm, ⟨37, _⟩ => ⟨S8x1x2048, .f32⟩
  | .hbm, ⟨38, _⟩ => ⟨S8x1x2048, .f32⟩
  | .hbm, ⟨39, _⟩ => ⟨S8x1x2048, .f32⟩
  | .hbm, ⟨40, _⟩ => ⟨S8x1x2048, .f32⟩
  | .hbm, ⟨41, _⟩ => ⟨S8x1x2048, .f32⟩
  | .hbm, ⟨42, _⟩ => ⟨S8x1x2048, .f32⟩
  | .hbm, ⟨43, _⟩ => ⟨S8x1x2048, .f32⟩
  | .hbm, ⟨44, _⟩ => ⟨S8x1x2048, .f32⟩
  | .hbm, ⟨45, _⟩ => ⟨S8x1x2048, .f32⟩
  | .hbm, ⟨46, _⟩ => ⟨S8x1x2048, .f32⟩
  | .hbm, ⟨47, _⟩ => ⟨S8x1x2048, .f32⟩
  | .hbm, ⟨48, _⟩ => ⟨S8x1x2048, .f32⟩
  | .hbm, ⟨49, _⟩ => ⟨S8x1x2048, .f32⟩
  | .hbm, ⟨50, _⟩ => ⟨S8x1x2048, .f32⟩
  | .hbm, ⟨51, _⟩ => ⟨S8x1x2048, .f32⟩
  | .hbm, ⟨52, _⟩ => ⟨S8x1x2048, .f32⟩
  | .hbm, ⟨53, _⟩ => ⟨S_, .f32⟩
  | .hbm, ⟨54, _⟩ => ⟨S8x1x2048, .f32⟩
  | .hbm, ⟨55, _⟩ => ⟨S8x1x2048, .f32⟩
  | .hbm, ⟨56, _⟩ => ⟨S_, .f32⟩
  | .hbm, ⟨57, _⟩ => ⟨S8x1x2048, .f32⟩
  | .hbm, ⟨58, _⟩ => ⟨S8x1x2048, .f32⟩
  | .hbm, ⟨59, _⟩ => ⟨S_, .f32⟩
  | .hbm, ⟨60, _⟩ => ⟨S8x1x2048, .f32⟩
  | .hbm, ⟨61, _⟩ => ⟨S8x1x2048, .f32⟩
  | .hbm, ⟨62, _⟩ => ⟨S8x1x2048, .f32⟩
  | .hbm, ⟨63, _⟩ => ⟨S8x1x2048, .f32⟩
  | .hbm, ⟨64, _⟩ => ⟨S8x1x2048, .f32⟩
  | .hbm, ⟨65, _⟩ => ⟨S1x1x2048, .f32⟩
  | .hbm, ⟨66, _⟩ => ⟨S1x2048, .f32⟩
  | .hbm, ⟨67, _⟩ => ⟨S_, .f32⟩
  | .hbm, ⟨68, _⟩ => ⟨S1x2048, .f32⟩
  | .hbm, ⟨69, _⟩ => ⟨S1x2048, .f32⟩
  | .hbm, ⟨70, _⟩ => ⟨S2048x1000, .f32⟩
  | .hbm, ⟨71, _⟩ => ⟨S1x1000, .f32⟩
  | .hbm, ⟨72, _⟩ => ⟨S1x1000, .f32⟩
  | .hbm, ⟨73, _⟩ => ⟨S1x1000, .f32⟩
  | .hbm, ⟨74, _⟩ => ⟨S_, .f32⟩
  | .hbm, ⟨75, _⟩ => ⟨S1, .f32⟩
  | .hbm, ⟨76, _⟩ => ⟨S_, .f32⟩
  | .hbm, ⟨77, _⟩ => ⟨S1, .f32⟩
  | .hbm, ⟨78, _⟩ => ⟨S1, .f32⟩
  | .hbm, ⟨79, _⟩ => ⟨S1x1, .f32⟩
  | .hbm, ⟨80, _⟩ => ⟨S1x1000, .f32⟩
  | .hbm, ⟨81, _⟩ => ⟨S1x1000, .f32⟩
  | .hbm, ⟨82, _⟩ => ⟨S1x1000, .f32⟩
  | .hbm, ⟨83, _⟩ => ⟨S_, .f32⟩
  | .hbm, ⟨84, _⟩ => ⟨S1, .f32⟩
  | .hbm, ⟨85, _⟩ => ⟨S1x1, .f32⟩
  | .hbm, ⟨86, _⟩ => ⟨S1x1, .f32⟩
  | .hbm, ⟨87, _⟩ => ⟨S1x1000, .f32⟩
  | .hbm, ⟨88, _⟩ => ⟨S1x1000, .f32⟩
  | _, _ => ⟨S1x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_1 : Ref sig .tc := ⟨.hbm, 53, rfl⟩
abbrev main_v35 : Ref sig .tc := ⟨.hbm, 54, rfl⟩
abbrev main_v36 : Ref sig .tc := ⟨.hbm, 55, rfl⟩
abbrev main_cst_2 : Ref sig .tc := ⟨.hbm, 56, rfl⟩
abbrev main_v37 : Ref sig .tc := ⟨.hbm, 57, rfl⟩
abbrev main_v38 : Ref sig .tc := ⟨.hbm, 58, rfl⟩
abbrev main_cst_3 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call0_cst : Ref sig .tc := ⟨.hbm, 74, rfl⟩
abbrev main_call0_v0 : Ref sig .tc := ⟨.hbm, 75, rfl⟩
abbrev main_call0_cst_0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_cst_1 : Ref sig .tc := ⟨.hbm, 83, rfl⟩
abbrev main_call0_v7 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_v52 : Ref sig .tc := ⟨.hbm, 88, rfl⟩

abbrev nD : Nat := 1
abbrev τ : Topo := Topo.v7x

variable {F : FTy → Type} [FloatOps F]

class Facts₀ : Prop where
  shapeCasts_S1x1x2048_S1x2048 : S1x1x2048.ShapeCasts S1x2048
  bcast_S1x2048_S1x1x2048_1_2 : S1x2048.BroadcastsInDim S1x1x2048 (![1, 2] : Fin 2 → Fin S1x1x2048.rank)
  slices_S8x1x2048_S7x1x2048_0_0_0 : S8x1x2048.Slices ![0, 0, 0] S7x1x2048
  concatenates_S1x1x2048_S7x1x2048_S8x1x2048_d0 : Shape.Concatenates [S1x1x2048, S7x1x2048] S8x1x2048 0
  bcast_S8x2048_S8x1x2048_0_2 : S8x2048.BroadcastsInDim S8x1x2048 (![0, 2] : Fin 2 → Fin S8x1x2048.rank)
  bcast_S_S8x1x2048 : S_.BroadcastsInDim S8x1x2048 (![] : Fin 0 → Fin S8x1x2048.rank)
  slices_S8x1x2048_S1x1x2048_7_0_0 : S8x1x2048.Slices ![7, 0, 0] S1x1x2048
  bcast_S_S1x2048 : S_.BroadcastsInDim S1x2048 (![] : Fin 0 → Fin S1x2048.rank)
  transposes_S1000x2048_S2048x1000_1_0 : S1000x2048.Transposes [1, 0] S2048x1000
  bcast_S1000_S1x1000_1 : S1000.BroadcastsInDim S1x1000 (![1] : Fin 1 → Fin S1x1000.rank)
  reducesTo_S1x1000_S1_d1 : S1x1000.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x1000_0_1 : S1x1.BroadcastsInDim S1x1000 (![0, 1] : Fin 2 → Fin S1x1000.rank)
  dot_S8x1x2048_S8x2048x2048_S8x1x2048_2_2_1_1_0_0_wf : DotDims.WF S8x1x2048 S8x2048x2048 S8x1x2048 [2] [2] [1] [1] [0] [0]
  dot_S1x2048_S2048x1000_S1x1000_1_0_0_1_n_n_wf : DotDims.WF S1x2048 S2048x1000 S1x1000 [1] [0] [0] [1] [] []

variable [Facts₀]

def dot_S8x1x2048_S8x2048x2048_S8x1x2048_2_2_1_1_0_0 : DotDims S8x1x2048 S8x2048x2048 S8x1x2048 where
  lhsContracting := [2]
  rhsContracting := [2]
  lhsNonContracting := [1]
  rhsNonContracting := [1]
  lhsBatch := [0]
  rhsBatch := [0]
  wf := dot_S8x1x2048_S8x2048x2048_S8x1x2048_2_2_1_1_0_0_wf
def dot_S1x2048_S2048x1000_S1x1000_1_0_0_1_n_n : DotDims S1x2048 S2048x1000 S1x1000 where
  lhsContracting := [1]
  rhsContracting := [0]
  lhsNonContracting := [0]
  rhsNonContracting := [1]
  lhsBatch := []
  rhsBatch := []
  wf := dot_S1x2048_S2048x1000_S1x1000_1_0_0_1_n_n_wf

class Facts : Prop extends Facts₀ where

variable [Facts]
-- ==== Proof.Spec.lean ====
/-
  What the two programs compute, coordinate by coordinate, over the extended reals.

  A stack of eight gated recurrent cells, every layer reading the ORIGINAL hidden rows (layer 0 reads the input row,
  layer l > 0 the hidden row l - 1), so the layers are independent; then a rectified affine read-out of the last
  layer's new hidden row and a log-softmax over its 1000 logits.

  For one layer with input row `a`, hidden row `hv`, six weight matrices and six bias rows, at hidden coordinate j
      reset  = σ (W_ir a + b_ir + W_hr hv + b_hr) j
      cand   = tanh (reset · (W_h1 hv + b_h1) j + (W_x1 a + b_x1) j)
      update = σ (W_iu a + b_iu + W_hu hv + b_hu) j
      new j  = (1 - update) · cand + update · hv j
  with σ x = 1 / (1 + e^(-x)). Each affine row is a sum over the 2048 input coordinates plus the bias; the order of
  that sum is immaterial on the extended reals (addition is commutative and associative there), which is why a
  tiling of the output coordinates computes the same numbers.

  The log-softmax of logits z is  z j - M - log (Σ_k e^(z k - M))  with M the maximum of z. A lane that holds -∞
  contributes nothing to it: -∞ is the identity of the maximum, -∞ - M = -∞ whatever M is, and e^(-∞) = 0 is the
  identity of the sum. So padding 1000 logits to 1024 lanes with -∞ leaves the first 1000 results unchanged
  (`logSoftmax_masked`).
-/
import Idealize.ShloMosaic.PureOps.Ideal
import Idealize.ShloMosaic.PureOps.Ideal.Laws

noncomputable section

namespace Cert.GruFc

open Idealize.ShloMosaic

/-- One row of an affine map: the inner product of `v` with the weight row `w`, plus the bias `b`. -/
def affRow (v w : Fin 2048 → EReal) (b : EReal) : EReal := (∑ k : Fin 2048, v k * w k) + b

/-- The logistic function as both programs spell it on the extended reals. -/
abbrev sig (x : EReal) : EReal := Ideal.logistic x

/-- One hidden coordinate of one gated cell, from the layer's input row `a`, its hidden row `hv`, the six weight
    ROWS and six bias entries of that coordinate, and the hidden row's own entry `hj` there. -/
def cellRow (a hv : Fin 2048 → EReal) (wir whr wh1 wx1 wiu whu : Fin 2048 → EReal)
    (bir bhr bh1 bx1 biu bhu hj : EReal) : EReal :=
  (1 - sig (affRow a wiu biu + affRow hv whu bhu))
      * Ideal.tanh (sig (affRow a wir bir + affRow hv whr bhr) * affRow hv wh1 bh1 + affRow a wx1 bx1)
    + sig (affRow a wiu biu + affRow hv whu bhu) * hj

/-- A logit of the read-out: the rectified hidden row against one weight row, plus its bias. -/
def logit (hrow w : Fin 2048 → EReal) (b : EReal) : EReal := (∑ k : Fin 2048, max (hrow k) 0 * w k) + b

/-- The maximum of finitely many extended reals, as a fold from -∞. -/
def vmax {n : Nat} (z : Fin n → EReal) : EReal := (Finset.univ : Finset (Fin n)).fold max ⊥ z

/-- Log-softmax in the shifted form: subtract the maximum, then the logarithm of the sum of exponentials. -/
def logSoftmax {n : Nat} (z : Fin n → EReal) (j : Fin n) : EReal :=
  (z j - vmax z) - Ideal.log (∑ k : Fin n, Ideal.exp (z k - vmax z))

/-- 1024 lanes of which the last 24 are set to -∞. -/
def masked (z : Fin 1024 → EReal) : Fin 1024 → EReal := fun l => if l.val < 1000 then z l else ⊥

/-- The first 1000 lanes as a vector of their own. -/
def head1000 (z : Fin 1024 → EReal) : Fin 1000 → EReal := fun j => z ⟨j.val, by have := j.isLt; omega⟩

/-- The input row of layer `l`: the input vector for layer 0, the ORIGINAL hidden row `l - 1` above it. -/
def inpRow (x : Fin 2048 → EReal) (h : Fin 8 → Fin 2048 → EReal) (l : Fin 8) : Fin 2048 → EReal :=
  fun k => if hl : l.val = 0 then x k else h ⟨l.val - 1, by have := l.isLt; omega⟩ k

/-- The new hidden state, layer `l`, coordinate `j`, as a function of the argument arrays by coordinates. -/
def newH (x : Fin 2048 → EReal) (h : Fin 8 → Fin 2048 → EReal)
    (Wir Whr Wh1 Wx1 Wiu Whu : Fin 8 → Fin 2048 → Fin 2048 → EReal)
    (bir bhr bh1 bx1 biu bhu : Fin 8 → Fin 2048 → EReal) (l : Fin 8) (j : Fin 2048) : EReal :=
  cellRow (inpRow x h l) (h l) (Wir l j) (Whr l j) (Wh1 l j) (Wx1 l j) (Wiu l j) (Whu l j)
    (bir l j) (bhr l j) (bh1 l j) (bx1 l j) (biu l j) (bhu l j) (h l j)

/-- The log-probabilities: log-softmax of the read-out's 1000 logits on the hidden row `hlast`. -/
def outLP (hlast : Fin 2048 → EReal) (Wfc : Fin 1000 → Fin 2048 → EReal) (bfc : Fin 1000 → EReal) (j : Fin 1000) : EReal :=
  logSoftmax (fun j' : Fin 1000 => logit hlast (Wfc j') (bfc j')) j

/-- The IEEE word of 1.0 denotes the extended real 1. -/
theorem ofBits_one_f32 : Ideal.ofBits .f32 0x3F800000#32 = 1 := by
  simp [Ideal.ofBits, Ideal.ieee]
  rw [← EReal.coe_mul, ← EReal.coe_one]
  norm_num

/-- The fold of the maximum from -∞ is the supremum over the lanes. -/
theorem vmax_eq_sup {n : Nat} (z : Fin n → EReal) : vmax z = Finset.univ.sup z := rfl

/-- Lanes at -∞ do not move the maximum. -/
theorem vmax_masked (z : Fin 1024 → EReal) : vmax (masked z) = vmax (head1000 z) := by
  rw [vmax_eq_sup, vmax_eq_sup]
  apply le_antisymm
  · refine Finset.sup_le fun l _ => ?_
    by_cases hl : l.val < 1000
    · have : masked z l = head1000 z ⟨l.val, hl⟩ := by simp [masked, head1000, hl]
      rw [this]
      exact Finset.le_sup (f := head1000 z) (Finset.mem_univ _)
    · simp [masked, hl]
  · refine Finset.sup_le fun j _ => ?_
    have : head1000 z j = masked z ⟨j.val, by have := j.isLt; omega⟩ := by simp [masked, head1000, j.isLt]
    rw [this]
    exact Finset.le_sup (f := masked z) (Finset.mem_univ _)

/-- Lanes at -∞ add nothing to the sum of exponentials, whatever is subtracted first. -/
theorem sum_exp_masked (z : Fin 1024 → EReal) (M : EReal) :
    (∑ l : Fin 1024, Ideal.exp (masked z l - M)) = ∑ j : Fin 1000, Ideal.exp (head1000 z j - M) := by
  show (∑ l : Fin (1000 + 24), Ideal.exp (masked z l - M)) = _
  rw [Fin.sum_univ_add]
  have htail : ∀ i : Fin 24, Ideal.exp (masked z (Fin.natAdd 1000 i) - M) = 0 := by
    intro i
    have hm : masked z (Fin.natAdd 1000 i) = ⊥ := by simp [masked]
    rw [hm, sub_eq_add_neg, EReal.bot_add, Ideal.exp_bot]
  rw [Finset.sum_eq_zero (fun i _ => htail i), add_zero]
  refine Finset.sum_congr rfl fun j _ => ?_
  have hh : masked z (Fin.castAdd 24 j) = head1000 z j := by
    unfold masked head1000
    rw [if_pos (show (Fin.castAdd 24 j).val < 1000 from j.isLt)]
    rfl
  rw [hh]

/-- Padding with -∞ leaves the first 1000 results of the log-softmax unchanged. -/
theorem logSoftmax_masked (z : Fin 1024 → EReal) (j : Fin 1000) :
    logSoftmax (masked z) ⟨j.val, by have := j.isLt; omega⟩ = logSoftmax (head1000 z) j := by
  have hj : masked z ⟨j.val, by have := j.isLt; omega⟩ = head1000 z j := by simp [masked, head1000, j.isLt]
  unfold logSoftmax
  rw [vmax_masked, sum_exp_masked, hj]

end Cert.GruFc

end
-- ==== Proof.Region0.lean ====
/-
  Region 0: the eight gated recurrent cells, tiled 512 hidden coordinates to a grid point.

  The grid has 8 x 4 points; point t = 4 l + n handles layer l and the hidden coordinates 512 n .. 512 n + 511. It
  stages the layer's input row and hidden row whole, 512 rows of each of the six weight matrices, 512 entries of each
  of the six bias rows, and writes 512 entries of the new hidden row. Every affine row is a matrix product of a
  [1,2048] row with a [512,2048] tile contracted over the 2048 input coordinates, so at tile row r it is the inner
  product with that weight row: the same sum the specification names. The hidden row's own entry, needed for the
  last term of the cell, is re-read from the whole staged row at lane offset 512 n.

  So after the last point the output array holds, at (l, 0, j), the cell of layer l at coordinate j, in terms of the
  arrays as the region found them: the point 4 l + j / 512 wrote that entry, and every entry a point writes is the
  cell at the array index it lands on.
-/
import proofs.«417925_j78761110274471_3_alg».proof.Proof.Gen.KernelIdeal.Frame
import proofs.«417925_j78761110274471_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.SL.Sem
open Idealize.ShloMosaic.ValueIdx Cert.GruFc

/-! ## What one grid point stores

The body stores once, through the whole output block. Read back, the block is the stored value: the body's arithmetic on
its fourteen loads and on its re-read of the hidden row at the tile's lane offset. -/

theorem zero_offsets : (![0, 0, 0] : Fin 3 → Nat) = fun _ => 0 := funext fun a => by fin_cases a <;> rfl

section AnyValues
variable {F : FTy → Type} [FloatOps F] [Named F]

/-- The output block after the body, for any contents of the fourteen input blocks. -/
theorem out_block (c : Dev nD) (i : grid0.Coords)
    (a2 : Memref sig .tc .vmem S1x1x2048 .f32) (h2 : a2.IsWhole) (a3 : Memref sig .tc .vmem S1x1x2048 .f32) (h3 : a3.IsWhole)
    (a4 : Memref sig .tc .vmem S1x512x2048 .f32) (h4 : a4.IsWhole) (a5 : Memref sig .tc .vmem S1x512x2048 .f32) (h5 : a5.IsWhole)
    (a6 : Memref sig .tc .vmem S1x512x2048 .f32) (h6 : a6.IsWhole) (a7 : Memref sig .tc .vmem S1x512x2048 .f32) (h7 : a7.IsWhole)
    (a8 : Memref sig .tc .vmem S1x512x2048 .f32) (h8 : a8.IsWhole) (a9 : Memref sig .tc .vmem S1x512x2048 .f32) (h9 : a9.IsWhole)
    (a10 : Memref sig .tc .vmem S1x1x512 .f32) (h10 : a10.IsWhole) (a11 : Memref sig .tc .vmem S1x1x512 .f32) (h11 : a11.IsWhole)
    (a12 : Memref sig .tc .vmem S1x1x512 .f32) (h12 : a12.IsWhole) (a13 : Memref sig .tc .vmem S1x1x512 .f32) (h13 : a13.IsWhole)
    (a14 : Memref sig .tc .vmem S1x1x512 .f32) (h14 : a14.IsWhole) (a15 : Memref sig .tc .vmem S1x1x512 .f32) (h15 : a15.IsWhole)
    (a16 : Memref sig .tc .vmem S1x1x512 .f32) (h16 : a16.IsWhole)
    (x0 x1 : Vec F S1x1x2048 .f32) (x2 x3 x4 x5 x6 x7 : Vec F S1x512x2048 .f32) (x8 x9 x10 x11 x12 x13 : Vec F S1x1x512 .f32) :
    out0_A_14 c i a2 h2 a3 h3 a4 h4 a5 h5 a6 h6 a7 h7 a8 h8 a9 h9 a10 h10 a11 h11 a12 h12 a13 h13 a14 h14 a15 h15 a16 h16
        x0 x1 x2 x3 x4 x5 x6 x7 x8 x9 x10 x11 x12 x13
      = k0_pay1 (k0_pay7 (k0_pay2 x0) (k0_pay3 x1) (k0_pay4 x0 x2 x8) (k0_pay5 x1 x3 x9) (k0_pay6 x1 x4 x10)
          x5 x11 x6 x12 x7 x13 (View.ld x1 (Rect.unit (s := S1x1x2048) (k0_off1 i) S1x1x512.size (k0_off1_inb i)))) := by
  unfold out0_A_14
  rw [View.read_writes_eq_canon _ _ _ (cover0_A_14 c i a2 h2 a3 h3 a4 h4 a5 h5 a6 h6 a7 h7 a8 h8 a9 h9 a10 h10 a11 h11 a12 h12
        a13 h13 a14 h14 a15 h15 a16 h16 x0 x1 x2 x3 x4 x5 x6 x7 x8 x9 x10 x11 x12 x13)]
  unfold kernelRun0_A
  dsimp only
  sl_unfold_words
  rw [View.canon_unit_zero zero_offsets]
  simp only [View.readAt_eq_ld, h2.read_unread, h3.read_unread, h4.read_unread, h5.read_unread, h6.read_unread, h7.read_unread,
    h8.read_unread, h9.read_unread, h10.read_unread, h11.read_unread, h12.read_unread, h13.read_unread, h14.read_unread, h15.read_unread,
    View.ld_unit_zero (S := S1x1x2048) zero_offsets, View.ld_unit_zero (S := S1x512x2048) zero_offsets,
    View.ld_unit_zero (S := S1x1x512) zero_offsets]

end AnyValues

/-- The re-read of the hidden row at lane offset 512 n: its lane r is lane 512 n + r of the row. -/
theorem reread_apply (i : grid0.Coords) (x1 : Vec Ideal S1x1x2048 .f32) (r : Fin 512) (q : Fin 2048)
    (hq : q.val = 512 * (i 1).val + r.val) :
    View.ld x1 (Rect.unit (s := S1x1x2048) (k0_off1 i) S1x1x512.size (k0_off1_inb i)) (ix3 0 0 r) = x1 (ix3 0 0 q) := by
  have e0 : k0_off1 i 0 = 0 := by rw [k0_off1_eq]; rfl
  have e1 : k0_off1 i 1 = 0 := by rw [k0_off1_eq]; rfl
  have e2 : k0_off1 i 2 = 512 * (i 1).val := by rw [k0_off1_eq]; rfl
  show x1 _ = x1 _
  congr 1
  funext a
  apply Fin.ext
  match a with
  | ⟨0, _⟩ => show k0_off1 i 0 + 1 * 0 = 0; omega
  | ⟨1, _⟩ => show k0_off1 i 1 + 1 * 0 = 0; omega
  | ⟨2, _⟩ => show k0_off1 i 2 + 1 * r.val = q.val; omega

/-! ## The body's value at a coordinate -/

section AtIndex

variable {α : Type}

/-- A [1,1,2048] row viewed as [2048] and then as [1,2048] reads (0, k) at (0, 0, k). -/
theorem row_apply (v : S1x1x2048.Idx → α) (h1 : S1x1x2048.ShapeCasts S2048) (h2 : S2048.ShapeCasts S1x2048) (k : Fin 2048) :
    shapeCast S1x2048 (shapeCast S2048 v h1) h2 (ix2 0 k) = v (ix3 0 0 k) :=
  (shapeCast_apply _ h2 (ix2 0 k) (ix1 k)
    (by rw [Shape.rowMajor_val_one, Shape.rowMajor_val_two]; show k.val = 0 * 2048 + k.val; omega)).trans
  (shapeCast_apply v h1 (ix1 k) (ix3 0 0 k)
    (by rw [Shape.rowMajor_val_three, Shape.rowMajor_val_one]; show (0 * 1 + 0) * 2048 + k.val = k.val; omega))

/-- A [1,512,2048] tile viewed as [512,2048] reads (r, k) at (0, r, k). -/
theorem tile_apply (v : S1x512x2048.Idx → α) (h : S1x512x2048.ShapeCasts S512x2048) (r : Fin 512) (k : Fin 2048) :
    shapeCast S512x2048 v h (ix2 r k) = v (ix3 0 r k) :=
  shapeCast_apply v h (ix2 r k) (ix3 0 r k)
    (by rw [Shape.rowMajor_val_three, Shape.rowMajor_val_two]; show (0 * 512 + r.val) * 2048 + k.val = r.val * 2048 + k.val; omega)

/-- A [1,1,512] row viewed as [512] reads r at (0, 0, r). -/
theorem bias_apply (v : S1x1x512.Idx → α) (h : S1x1x512.ShapeCasts S512) (r : Fin 512) :
    shapeCast S512 v h (ix1 r) = v (ix3 0 0 r) :=
  shapeCast_apply v h (ix1 r) (ix3 0 0 r)
    (by rw [Shape.rowMajor_val_three, Shape.rowMajor_val_one]; show (0 * 1 + 0) * 512 + r.val = r.val; omega)

/-- A [1,512] row viewed as [512] reads r at (0, r). -/
theorem lane_apply (v : S1x512.Idx → α) (h : S1x512.ShapeCasts S512) (r : Fin 512) :
    shapeCast S512 v h (ix1 r) = v (ix2 0 r) :=
  shapeCast_apply v h (ix1 r) (ix2 0 r)
    (by rw [Shape.rowMajor_val_two, Shape.rowMajor_val_one]; show 0 * 512 + r.val = r.val; omega)

/-- A [512] vector viewed as [1,1,512] reads (0, 0, r) at r. -/
theorem out_apply (v : S512.Idx → α) (h : S512.ShapeCasts S1x1x512) (r : Fin 512) :
    shapeCast S1x1x512 v h (ix3 0 0 r) = v (ix1 r) :=
  shapeCast_apply v h (ix3 0 0 r) (ix1 r)
    (by rw [Shape.rowMajor_val_three, Shape.rowMajor_val_one]; show r.val = (0 * 1 + 0) * 512 + r.val; omega)

end AtIndex

/-! The contraction [1,2048] · [512,2048]ᵀ → [1,512]: which operand coordinates a result coordinate and a contraction
    position read. -/
theorem mm_lhs_0 (i : S1x512.Idx) (q : dot_S1x2048_S512x2048_S1x512_1_1_0_0_n_n.contr.Idx) :
    (dot_S1x2048_S512x2048_S1x512_1_1_0_0_n_n.lhsIdx i q 0).val = (i 0).val := by
  unfold DotDims.lhsIdx
  rw [dif_neg (show ¬(0 : Fin S1x2048.rank) ∈ dot_S1x2048_S512x2048_S1x512_1_1_0_0_n_n.lhsBatch by decide), dif_pos (show (0 : Fin S1x2048.rank) ∈ dot_S1x2048_S512x2048_S1x512_1_1_0_0_n_n.lhsNonContracting by decide)]
  rfl
theorem mm_lhs_1 (i : S1x512.Idx) (q : dot_S1x2048_S512x2048_S1x512_1_1_0_0_n_n.contr.Idx) :
    (dot_S1x2048_S512x2048_S1x512_1_1_0_0_n_n.lhsIdx i q 1).val = (q ⟨0, by decide⟩).val :=
  dot_S1x2048_S512x2048_S1x512_1_1_0_0_n_n.lhsIdx_val_of_single rfl i q
theorem mm_rhs_0 (i : S1x512.Idx) (q : dot_S1x2048_S512x2048_S1x512_1_1_0_0_n_n.contr.Idx) :
    (dot_S1x2048_S512x2048_S1x512_1_1_0_0_n_n.rhsIdx i q 0).val = (i 1).val := by
  unfold DotDims.rhsIdx
  rw [dif_neg (show ¬(0 : Fin S512x2048.rank) ∈ dot_S1x2048_S512x2048_S1x512_1_1_0_0_n_n.rhsBatch by decide), dif_pos (show (0 : Fin S512x2048.rank) ∈ dot_S1x2048_S512x2048_S1x512_1_1_0_0_n_n.rhsNonContracting by decide)]
  rfl
theorem mm_rhs_1 (i : S1x512.Idx) (q : dot_S1x2048_S512x2048_S1x512_1_1_0_0_n_n.contr.Idx) :
    (dot_S1x2048_S512x2048_S1x512_1_1_0_0_n_n.rhsIdx i q 1).val = (q ⟨0, by decide⟩).val :=
  dot_S1x2048_S512x2048_S1x512_1_1_0_0_n_n.rhsIdx_val_of_single rfl i q

/-- The matrix product into the zero block, at result lane r: the inner product of the row with the tile's row r. -/
theorem mm_apply (lhs : FVec Ideal S1x2048 .f32) (rhs : FVec Ideal S512x2048 .f32) (r : Fin 512) :
    matmul dot_S1x2048_S512x2048_S1x512_1_1_0_0_n_n (some .fp32) lhs rhs (constant (F := Ideal) S1x512 .f32 0x00000000#32) (ix2 0 r)
      = ∑ k : Fin 2048, lhs (ix2 0 k) * rhs (ix2 r k) := by
  refine (Ideal.matmul_constant_zero_apply dot_S1x2048_S512x2048_S1x512_1_1_0_0_n_n (some .fp32) lhs rhs (ix2 0 r)).trans ?_
  rw [← Equiv.sum_comp (contrEquiv1 dot_S1x2048_S512x2048_S1x512_1_1_0_0_n_n 2048 rfl rfl).symm]
  refine Finset.sum_congr rfl fun k _ => ?_
  have hk := contrEquiv1_symm_val dot_S1x2048_S512x2048_S1x512_1_1_0_0_n_n 2048 rfl rfl k
  have el : dot_S1x2048_S512x2048_S1x512_1_1_0_0_n_n.lhsIdx (ix2 0 r) ((contrEquiv1 dot_S1x2048_S512x2048_S1x512_1_1_0_0_n_n 2048 rfl rfl).symm k) = ix2 0 k := funext fun a => Fin.ext (by
    match a with
    | ⟨0, _⟩ => exact mm_lhs_0 _ _
    | ⟨1, _⟩ => exact (mm_lhs_1 _ _).trans hk)
  have er : dot_S1x2048_S512x2048_S1x512_1_1_0_0_n_n.rhsIdx (ix2 0 r) ((contrEquiv1 dot_S1x2048_S512x2048_S1x512_1_1_0_0_n_n 2048 rfl rfl).symm k) = ix2 r k := funext fun a => Fin.ext (by
    match a with
    | ⟨0, _⟩ => exact mm_rhs_0 _ _
    | ⟨1, _⟩ => exact (mm_rhs_1 _ _).trans hk)
  rw [el, er]

/-- One affine row as the body computes it: the product's lane r plus the bias's entry r. -/
theorem aff_apply (lhs : FVec Ideal S1x2048 .f32) (w : FVec Ideal S1x512x2048 .f32) (b : FVec Ideal S1x1x512 .f32)
    (h1 : S1x512x2048.ShapeCasts S512x2048) (h2 : S1x512.ShapeCasts S512) (h3 : S1x1x512.ShapeCasts S512) (r : Fin 512) :
    addf (shapeCast S512 (matmul dot_S1x2048_S512x2048_S1x512_1_1_0_0_n_n (some .fp32) lhs (shapeCast S512x2048 w h1)
        (constant (F := Ideal) S1x512 .f32 0x00000000#32)) h2) (shapeCast S512 b h3) (ix1 r)
      = affRow (fun k => lhs (ix2 0 k)) (fun k => w (ix3 0 r k)) (b (ix3 0 0 r)) := by
  unfold affRow
  refine (addf_apply _ _ _).trans ?_
  refine congrArg₂ (· + ·) ?_ (bias_apply b h3 r)
  refine (lane_apply _ h2 r).trans ?_
  refine (mm_apply lhs _ r).trans ?_
  exact Finset.sum_congr rfl fun k _ => congrArg (lhs (ix2 0 k) * ·) (tile_apply w h1 r k)

/-- The cell's arithmetic on six affine rows and the hidden entry, at lane r. -/
theorem cell_apply (A12 A19 A26 A33 A40 A47 H : FVec Ideal S512 .f32) (r : Fin 512) :
    addf (mulf (subf (broadcast S512 (Scalar.ofBits (F := Ideal) .f32 0x3F800000#32)) (logistic (addf A40 A47)))
          (tanh (addf (mulf (logistic (addf A12 A19)) A26) A33)))
        (mulf (logistic (addf A40 A47)) H) (ix1 r)
      = (1 - Cert.GruFc.sig (A40 (ix1 r) + A47 (ix1 r)))
          * Ideal.tanh (Cert.GruFc.sig (A12 (ix1 r) + A19 (ix1 r)) * A26 (ix1 r) + A33 (ix1 r))
        + Cert.GruFc.sig (A40 (ix1 r) + A47 (ix1 r)) * H (ix1 r) := by
  show (Ideal.ofBits .f32 0x3F800000#32 - _) * _ + _ = _
  rw [ofBits_one_f32]
  rfl

theorem pay2_apply (x0 : FVec Ideal S1x1x2048 .f32) (k : Fin 2048) : k0_pay2 (F := Ideal) x0 (ix2 0 k) = x0 (ix3 0 0 k) := by
  unfold k0_pay2; exact row_apply x0 _ _ k
theorem pay3_apply (x1 : FVec Ideal S1x1x2048 .f32) (k : Fin 2048) : k0_pay3 (F := Ideal) x1 (ix2 0 k) = x1 (ix3 0 0 k) := by
  unfold k0_pay3; exact row_apply x1 _ _ k

theorem pay4_apply (x0 : FVec Ideal S1x1x2048 .f32) (w : FVec Ideal S1x512x2048 .f32) (b : FVec Ideal S1x1x512 .f32) (r : Fin 512) :
    k0_pay4 (F := Ideal) x0 w b (ix1 r) = affRow (fun k => x0 (ix3 0 0 k)) (fun k => w (ix3 0 r k)) (b (ix3 0 0 r)) := by
  unfold k0_pay4
  refine (aff_apply (k0_pay2 x0) w b _ _ _ r).trans ?_
  simp only [pay2_apply]
theorem pay5_apply (x1 : FVec Ideal S1x1x2048 .f32) (w : FVec Ideal S1x512x2048 .f32) (b : FVec Ideal S1x1x512 .f32) (r : Fin 512) :
    k0_pay5 (F := Ideal) x1 w b (ix1 r) = affRow (fun k => x1 (ix3 0 0 k)) (fun k => w (ix3 0 r k)) (b (ix3 0 0 r)) := by
  unfold k0_pay5
  refine (aff_apply (k0_pay3 x1) w b _ _ _ r).trans ?_
  simp only [pay3_apply]
theorem pay6_apply (x1 : FVec Ideal S1x1x2048 .f32) (w : FVec Ideal S1x512x2048 .f32) (b : FVec Ideal S1x1x512 .f32) (r : Fin 512) :
    k0_pay6 (F := Ideal) x1 w b (ix1 r) = affRow (fun k => x1 (ix3 0 0 k)) (fun k => w (ix3 0 r k)) (b (ix3 0 0 r)) := by
  unfold k0_pay6
  refine (aff_apply (k0_pay3 x1) w b _ _ _ r).trans ?_
  simp only [pay3_apply]

theorem pay7_apply (v2 v5 : FVec Ideal S1x2048 .f32) (v12 v19 v26 : FVec Ideal S512 .f32)
    (v27 : FVec Ideal S1x512x2048 .f32) (v31 : FVec Ideal S1x1x512 .f32) (v34 : FVec Ideal S1x512x2048 .f32) (v38 : FVec Ideal S1x1x512 .f32)
    (v41 : FVec Ideal S1x512x2048 .f32) (v45 : FVec Ideal S1x1x512 .f32) (v58 : FVec Ideal S1x1x512 .f32) (r : Fin 512) :
    k0_pay7 (F := Ideal) v2 v5 v12 v19 v26 v27 v31 v34 v38 v41 v45 v58 (ix1 r)
      = (1 - Cert.GruFc.sig (affRow (fun k => v2 (ix2 0 k)) (fun k => v34 (ix3 0 r k)) (v38 (ix3 0 0 r))
                  + affRow (fun k => v5 (ix2 0 k)) (fun k => v41 (ix3 0 r k)) (v45 (ix3 0 0 r))))
          * Ideal.tanh (Cert.GruFc.sig (v12 (ix1 r) + v19 (ix1 r)) * v26 (ix1 r)
              + affRow (fun k => v2 (ix2 0 k)) (fun k => v27 (ix3 0 r k)) (v31 (ix3 0 0 r)))
        + Cert.GruFc.sig (affRow (fun k => v2 (ix2 0 k)) (fun k => v34 (ix3 0 r k)) (v38 (ix3 0 0 r))
                  + affRow (fun k => v5 (ix2 0 k)) (fun k => v41 (ix3 0 r k)) (v45 (ix3 0 0 r))) * v58 (ix3 0 0 r) := by
  unfold k0_pay7
  refine (cell_apply _ _ _ _ _ _ _ r).trans ?_
  rw [aff_apply v2 v27 v31 _ _ _ r, aff_apply v2 v34 v38 _ _ _ r, aff_apply v5 v41 v45 _ _ _ r, bias_apply v58 _ r]

/-- The stored value at lane r is the gated cell of the two rows, the six weight rows r and the six bias entries r,
    and the hidden entry the body re-read. -/
theorem pay_apply (x0 x1 : FVec Ideal S1x1x2048 .f32) (x2 x3 x4 x5 x6 x7 : FVec Ideal S1x512x2048 .f32)
    (x8 x9 x10 x11 x12 x13 v58 : FVec Ideal S1x1x512 .f32) (r : Fin 512) :
    k0_pay1 (F := Ideal) (k0_pay7 (k0_pay2 x0) (k0_pay3 x1) (k0_pay4 x0 x2 x8) (k0_pay5 x1 x3 x9) (k0_pay6 x1 x4 x10)
        x5 x11 x6 x12 x7 x13 v58) (ix3 0 0 r)
      = cellRow (fun k => x0 (ix3 0 0 k)) (fun k => x1 (ix3 0 0 k))
          (fun k => x2 (ix3 0 r k)) (fun k => x3 (ix3 0 r k)) (fun k => x4 (ix3 0 r k))
          (fun k => x5 (ix3 0 r k)) (fun k => x6 (ix3 0 r k)) (fun k => x7 (ix3 0 r k))
          (x8 (ix3 0 0 r)) (x9 (ix3 0 0 r)) (x10 (ix3 0 0 r)) (x11 (ix3 0 0 r)) (x12 (ix3 0 0 r)) (x13 (ix3 0 0 r))
          (v58 (ix3 0 0 r)) := by
  unfold k0_pay1
  refine (out_apply _ _ r).trans ?_
  refine (pay7_apply _ _ _ _ _ _ _ _ _ _ _ _ r).trans ?_
  unfold cellRow
  rw [pay4_apply, pay5_apply, pay6_apply]
  simp only [pay2_apply, pay3_apply]

/- The TensorCore's buffer contents when the region is entered. -/
variable (V : (c : Dev nD) → (b : Ref sig .tc) → Buf (Elt Ideal) ((c : Thread nD τ).loc b))

/-- The arrays region 0 stages, by their literal types: the per-layer input rows, the hidden rows, the six weight
    stacks and the six bias stacks (reshaped to three axes by the host). -/
abbrev inpA (c : Dev nD) : S8x1x2048.Idx → EReal := V c main_v3
abbrev hidA (c : Dev nD) : S8x1x2048.Idx → EReal := V c main_arg1
abbrev wirA (c : Dev nD) : S8x2048x2048.Idx → EReal := V c main_arg2
abbrev whrA (c : Dev nD) : S8x2048x2048.Idx → EReal := V c main_arg4
abbrev wh1A (c : Dev nD) : S8x2048x2048.Idx → EReal := V c main_arg6
abbrev wx1A (c : Dev nD) : S8x2048x2048.Idx → EReal := V c main_arg8
abbrev wiuA (c : Dev nD) : S8x2048x2048.Idx → EReal := V c main_arg10
abbrev whuA (c : Dev nD) : S8x2048x2048.Idx → EReal := V c main_arg12
abbrev birA (c : Dev nD) : S8x1x2048.Idx → EReal := V c main_v4
abbrev bhrA (c : Dev nD) : S8x1x2048.Idx → EReal := V c main_v5
abbrev bh1A (c : Dev nD) : S8x1x2048.Idx → EReal := V c main_v6
abbrev bx1A (c : Dev nD) : S8x1x2048.Idx → EReal := V c main_v7
abbrev biuA (c : Dev nD) : S8x1x2048.Idx → EReal := V c main_v8
abbrev bhuA (c : Dev nD) : S8x1x2048.Idx → EReal := V c main_v9

/-! ## The blocks at a point

Point t = 4 l + n of the 8 x 4 grid works on layer l = t / 4 and tile n = t % 4. -/

/-- The two row windows sit at block (t / 4, 0, 0): the layer's whole row. -/
theorem idx_rows : ∀ t : Fin cfg0.N,
    (win0_0.index t (0 : Fin 3) = t.val / 4 ∧ win0_0.index t (1 : Fin 3) = 0 ∧ win0_0.index t (2 : Fin 3) = 0)
    ∧ (win0_1.index t (0 : Fin 3) = t.val / 4 ∧ win0_1.index t (1 : Fin 3) = 0 ∧ win0_1.index t (2 : Fin 3) = 0) :=
  (by decide +kernel : ∀ t : Fin grid0.N, _)

/-- The six weight windows sit at block (t / 4, t % 4, 0): 512 rows of the layer's matrix. -/
theorem idx_tiles : ∀ t : Fin cfg0.N,
    (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = t.val % 4 ∧ win0_4.index t (2 : Fin 3) = 0)
    ∧ (win0_5.index t (0 : Fin 3) = t.val / 4 ∧ win0_5.index t (1 : Fin 3) = t.val % 4 ∧ win0_5.index t (2 : Fin 3) = 0)
    ∧ (win0_6.index t (0 : Fin 3) = t.val / 4 ∧ win0_6.index t (1 : Fin 3) = t.val % 4 ∧ win0_6.index t (2 : Fin 3) = 0)
    ∧ (win0_7.index t (0 : Fin 3) = t.val / 4 ∧ win0_7.index t (1 : Fin 3) = t.val % 4 ∧ win0_7.index t (2 : Fin 3) = 0) :=
  (by decide +kernel : ∀ t : Fin grid0.N, _)

/-- The six bias windows and the output window sit at block (t / 4, 0, t % 4): 512 lanes of the layer's row. -/
theorem idx_lanes : ∀ t : Fin cfg0.N,
    (win0_8.index t (0 : Fin 3) = t.val / 4 ∧ win0_8.index t (1 : Fin 3) = 0 ∧ win0_8.index t (2 : Fin 3) = t.val % 4)
    ∧ (win0_9.index t (0 : Fin 3) = t.val / 4 ∧ win0_9.index t (1 : Fin 3) = 0 ∧ win0_9.index t (2 : Fin 3) = t.val % 4)
    ∧ (win0_10.index t (0 : Fin 3) = t.val / 4 ∧ win0_10.index t (1 : Fin 3) = 0 ∧ win0_10.index t (2 : Fin 3) = t.val % 4)
    ∧ (win0_11.index t (0 : Fin 3) = t.val / 4 ∧ win0_11.index t (1 : Fin 3) = 0 ∧ win0_11.index t (2 : Fin 3) = t.val % 4)
    ∧ (win0_12.index t (0 : Fin 3) = t.val / 4 ∧ win0_12.index t (1 : Fin 3) = 0 ∧ win0_12.index t (2 : Fin 3) = t.val % 4)
    ∧ (win0_13.index t (0 : Fin 3) = t.val / 4 ∧ win0_13.index t (1 : Fin 3) = 0 ∧ win0_13.index t (2 : Fin 3) = t.val % 4)
    ∧ (win0_14.index t (0 : Fin 3) = t.val / 4 ∧ win0_14.index t (1 : Fin 3) = 0 ∧ win0_14.index t (2 : Fin 3) = t.val % 4) :=
  (by decide +kernel : ∀ t : Fin grid0.N, _)

/-- The grid's second coordinate at point t is t % 4. -/
theorem coord_tile : ∀ t : Fin cfg0.N, ((grid0.coords t) 1).val = t.val % 4 :=
  (by decide +kernel : ∀ t : Fin grid0.N, _)

theorem inp_block_at (c : Dev nD) (t : Fin cfg0.N) (l : Fin 8) (hl : t.val / 4 = l.val) (k : Fin 2048) :
    (iblk0 (F := Ideal) V c 0 t : FVec Ideal S1x1x2048 .f32) (ix3 0 0 k) = inpA V c (ix3 l 0 k) := by
  obtain ⟨e0, e1, e2⟩ := (idx_rows t).1
  unfold iblk0
  rw [View.read_apply]
  show V c main_v3 _ = V c main_v3 _
  congr 1
  funext a
  apply Fin.ext
  match a with
  | ⟨0, _⟩ => show win0_0.index t (0 : Fin 3) * 1 + 1 * 0 = l.val; omega
  | ⟨1, _⟩ => show win0_0.index t (1 : Fin 3) * 1 + 1 * 0 = 0; omega
  | ⟨2, _⟩ => show win0_0.index t (2 : Fin 3) * 2048 + 1 * k.val = k.val; omega

theorem hid_block_at (c : Dev nD) (t : Fin cfg0.N) (l : Fin 8) (hl : t.val / 4 = l.val) (k : Fin 2048) :
    (iblk0 (F := Ideal) V c 1 t : FVec Ideal S1x1x2048 .f32) (ix3 0 0 k) = hidA V c (ix3 l 0 k) := by
  obtain ⟨e0, e1, e2⟩ := (idx_rows t).2
  unfold iblk0
  rw [View.read_apply]
  show V c main_arg1 _ = V c main_arg1 _
  congr 1
  funext a
  apply Fin.ext
  match a with
  | ⟨0, _⟩ => show win0_1.index t (0 : Fin 3) * 1 + 1 * 0 = l.val; omega
  | ⟨1, _⟩ => show win0_1.index t (1 : Fin 3) * 1 + 1 * 0 = 0; omega
  | ⟨2, _⟩ => show win0_1.index t (2 : Fin 3) * 2048 + 1 * k.val = k.val; omega

theorem wir_block_at (c : Dev nD) (t : Fin cfg0.N) (l : Fin 8) (j : Fin 2048) (r : Fin 512) (hl : t.val / 4 = l.val)
    (hj : j.val = 512 * (t.val % 4) + r.val) (k : Fin 2048) :
    (iblk0 (F := Ideal) V c 2 t : FVec Ideal S1x512x2048 .f32) (ix3 0 r k) = wirA V c (ix3 l j k) := by
  obtain ⟨e0, e1, e2⟩ := (idx_tiles t).1
  unfold iblk0
  rw [View.read_apply]
  show V c main_arg2 _ = V c main_arg2 _
  congr 1
  funext a
  apply Fin.ext
  match a with
  | ⟨0, _⟩ => show win0_2.index t (0 : Fin 3) * 1 + 1 * 0 = l.val; omega
  | ⟨1, _⟩ => show win0_2.index t (1 : Fin 3) * 512 + 1 * r.val = j.val; omega
  | ⟨2, _⟩ => show win0_2.index t (2 : Fin 3) * 2048 + 1 * k.val = k.val; omega

theorem whr_block_at (c : Dev nD) (t : Fin cfg0.N) (l : Fin 8) (j : Fin 2048) (r : Fin 512) (hl : t.val / 4 = l.val)
    (hj : j.val = 512 * (t.val % 4) + r.val) (k : Fin 2048) :
    (iblk0 (F := Ideal) V c 3 t : FVec Ideal S1x512x2048 .f32) (ix3 0 r k) = whrA V c (ix3 l j k) := by
  obtain ⟨e0, e1, e2⟩ := (idx_tiles t).2.1
  unfold iblk0
  rw [View.read_apply]
  show V c main_arg4 _ = V c main_arg4 _
  congr 1
  funext a
  apply Fin.ext
  match a with
  | ⟨0, _⟩ => show win0_3.index t (0 : Fin 3) * 1 + 1 * 0 = l.val; omega
  | ⟨1, _⟩ => show win0_3.index t (1 : Fin 3) * 512 + 1 * r.val = j.val; omega
  | ⟨2, _⟩ => show win0_3.index t (2 : Fin 3) * 2048 + 1 * k.val = k.val; omega

theorem wh1_block_at (c : Dev nD) (t : Fin cfg0.N) (l : Fin 8) (j : Fin 2048) (r : Fin 512) (hl : t.val / 4 = l.val)
    (hj : j.val = 512 * (t.val % 4) + r.val) (k : Fin 2048) :
    (iblk0 (F := Ideal) V c 4 t : FVec Ideal S1x512x2048 .f32) (ix3 0 r k) = wh1A V c (ix3 l j k) := by
  obtain ⟨e0, e1, e2⟩ := (idx_tiles t).2.2.1
  unfold iblk0
  rw [View.read_apply]
  show V c main_arg6 _ = V c main_arg6 _
  congr 1
  funext a
  apply Fin.ext
  match a with
  | ⟨0, _⟩ => show win0_4.index t (0 : Fin 3) * 1 + 1 * 0 = l.val; omega
  | ⟨1, _⟩ => show win0_4.index t (1 : Fin 3) * 512 + 1 * r.val = j.val; omega
  | ⟨2, _⟩ => show win0_4.index t (2 : Fin 3) * 2048 + 1 * k.val = k.val; omega

theorem wx1_block_at (c : Dev nD) (t : Fin cfg0.N) (l : Fin 8) (j : Fin 2048) (r : Fin 512) (hl : t.val / 4 = l.val)
    (hj : j.val = 512 * (t.val % 4) + r.val) (k : Fin 2048) :
    (iblk0 (F := Ideal) V c 5 t : FVec Ideal S1x512x2048 .f32) (ix3 0 r k) = wx1A V c (ix3 l j k) := by
  obtain ⟨e0, e1, e2⟩ := (idx_tiles t).2.2.2.1
  unfold iblk0
  rw [View.read_apply]
  show V c main_arg8 _ = V c main_arg8 _
  congr 1
  funext a
  apply Fin.ext
  match a with
  | ⟨0, _⟩ => show win0_5.index t (0 : Fin 3) * 1 + 1 * 0 = l.val; omega
  | ⟨1, _⟩ => show win0_5.index t (1 : Fin 3) * 512 + 1 * r.val = j.val; omega
  | ⟨2, _⟩ => show win0_5.index t (2 : Fin 3) * 2048 + 1 * k.val = k.val; omega

theorem wiu_block_at (c : Dev nD) (t : Fin cfg0.N) (l : Fin 8) (j : Fin 2048) (r : Fin 512) (hl : t.val / 4 = l.val)
    (hj : j.val = 512 * (t.val % 4) + r.val) (k : Fin 2048) :
    (iblk0 (F := Ideal) V c 6 t : FVec Ideal S1x512x2048 .f32) (ix3 0 r k) = wiuA V c (ix3 l j k) := by
  obtain ⟨e0, e1, e2⟩ := (idx_tiles t).2.2.2.2.1
  unfold iblk0
  rw [View.read_apply]
  show V c main_arg10 _ = V c main_arg10 _
  congr 1
  funext a
  apply Fin.ext
  match a with
  | ⟨0, _⟩ => show win0_6.index t (0 : Fin 3) * 1 + 1 * 0 = l.val; omega
  | ⟨1, _⟩ => show win0_6.index t (1 : Fin 3) * 512 + 1 * r.val = j.val; omega
  | ⟨2, _⟩ => show win0_6.index t (2 : Fin 3) * 2048 + 1 * k.val = k.val; omega

theorem whu_block_at (c : Dev nD) (t : Fin cfg0.N) (l : Fin 8) (j : Fin 2048) (r : Fin 512) (hl : t.val / 4 = l.val)
    (hj : j.val = 512 * (t.val % 4) + r.val) (k : Fin 2048) :
    (iblk0 (F := Ideal) V c 7 t : FVec Ideal S1x512x2048 .f32) (ix3 0 r k) = whuA V c (ix3 l j k) := by
  obtain ⟨e0, e1, e2⟩ := (idx_tiles t).2.2.2.2.2
  unfold iblk0
  rw [View.read_apply]
  show V c main_arg12 _ = V c main_arg12 _
  congr 1
  funext a
  apply Fin.ext
  match a with
  | ⟨0, _⟩ => show win0_7.index t (0 : Fin 3) * 1 + 1 * 0 = l.val; omega
  | ⟨1, _⟩ => show win0_7.index t (1 : Fin 3) * 512 + 1 * r.val = j.val; omega
  | ⟨2, _⟩ => show win0_7.index t (2 : Fin 3) * 2048 + 1 * k.val = k.val; omega

theorem bir_block_at (c : Dev nD) (t : Fin cfg0.N) (l : Fin 8) (j : Fin 2048) (r : Fin 512) (hl : t.val / 4 = l.val)
    (hj : j.val = 512 * (t.val % 4) + r.val) :
    (iblk0 (F := Ideal) V c 8 t : FVec Ideal S1x1x512 .f32) (ix3 0 0 r) = birA V c (ix3 l 0 j) := by
  obtain ⟨e0, e1, e2⟩ := (idx_lanes t).1
  unfold iblk0
  rw [View.read_apply]
  show V c main_v4 _ = V c main_v4 _
  congr 1
  funext a
  apply Fin.ext
  match a with
  | ⟨0, _⟩ => show win0_8.index t (0 : Fin 3) * 1 + 1 * 0 = l.val; omega
  | ⟨1, _⟩ => show win0_8.index t (1 : Fin 3) * 1 + 1 * 0 = 0; omega
  | ⟨2, _⟩ => show win0_8.index t (2 : Fin 3) * 512 + 1 * r.val = j.val; omega

theorem bhr_block_at (c : Dev nD) (t : Fin cfg0.N) (l : Fin 8) (j : Fin 2048) (r : Fin 512) (hl : t.val / 4 = l.val)
    (hj : j.val = 512 * (t.val % 4) + r.val) :
    (iblk0 (F := Ideal) V c 9 t : FVec Ideal S1x1x512 .f32) (ix3 0 0 r) = bhrA V c (ix3 l 0 j) := by
  obtain ⟨e0, e1, e2⟩ := (idx_lanes t).2.1
  unfold iblk0
  rw [View.read_apply]
  show V c main_v5 _ = V c main_v5 _
  congr 1
  funext a
  apply Fin.ext
  match a with
  | ⟨0, _⟩ => show win0_9.index t (0 : Fin 3) * 1 + 1 * 0 = l.val; omega
  | ⟨1, _⟩ => show win0_9.index t (1 : Fin 3) * 1 + 1 * 0 = 0; omega
  | ⟨2, _⟩ => show win0_9.index t (2 : Fin 3) * 512 + 1 * r.val = j.val; omega

theorem bh1_block_at (c : Dev nD) (t : Fin cfg0.N) (l : Fin 8) (j : Fin 2048) (r : Fin 512) (hl : t.val / 4 = l.val)
    (hj : j.val = 512 * (t.val % 4) + r.val) :
    (iblk0 (F := Ideal) V c 10 t : FVec Ideal S1x1x512 .f32) (ix3 0 0 r) = bh1A V c (ix3 l 0 j) := by
  obtain ⟨e0, e1, e2⟩ := (idx_lanes t).2.2.1
  unfold iblk0
  rw [View.read_apply]
  show V c main_v6 _ = V c main_v6 _
  congr 1
  funext a
  apply Fin.ext
  match a with
  | ⟨0, _⟩ => show win0_10.index t (0 : Fin 3) * 1 + 1 * 0 = l.val; omega
  | ⟨1, _⟩ => show win0_10.index t (1 : Fin 3) * 1 + 1 * 0 = 0; omega
  | ⟨2, _⟩ => show win0_10.index t (2 : Fin 3) * 512 + 1 * r.val = j.val; omega

theorem bx1_block_at (c : Dev nD) (t : Fin cfg0.N) (l : Fin 8) (j : Fin 2048) (r : Fin 512) (hl : t.val / 4 = l.val)
    (hj : j.val = 512 * (t.val % 4) + r.val) :
    (iblk0 (F := Ideal) V c 11 t : FVec Ideal S1x1x512 .f32) (ix3 0 0 r) = bx1A V c (ix3 l 0 j) := by
  obtain ⟨e0, e1, e2⟩ := (idx_lanes t).2.2.2.1
  unfold iblk0
  rw [View.read_apply]
  show V c main_v7 _ = V c main_v7 _
  congr 1
  funext a
  apply Fin.ext
  match a with
  | ⟨0, _⟩ => show win0_11.index t (0 : Fin 3) * 1 + 1 * 0 = l.val; omega
  | ⟨1, _⟩ => show win0_11.index t (1 : Fin 3) * 1 + 1 * 0 = 0; omega
  | ⟨2, _⟩ => show win0_11.index t (2 : Fin 3) * 512 + 1 * r.val = j.val; omega

theorem biu_block_at (c : Dev nD) (t : Fin cfg0.N) (l : Fin 8) (j : Fin 2048) (r : Fin 512) (hl : t.val / 4 = l.val)
    (hj : j.val = 512 * (t.val % 4) + r.val) :
    (iblk0 (F := Ideal) V c 12 t : FVec Ideal S1x1x512 .f32) (ix3 0 0 r) = biuA V c (ix3 l 0 j) := by
  obtain ⟨e0, e1, e2⟩ := (idx_lanes t).2.2.2.2.1
  unfold iblk0
  rw [View.read_apply]
  show V c main_v8 _ = V c main_v8 _
  congr 1
  funext a
  apply Fin.ext
  match a with
  | ⟨0, _⟩ => show win0_12.index t (0 : Fin 3) * 1 + 1 * 0 = l.val; omega
  | ⟨1, _⟩ => show win0_12.index t (1 : Fin 3) * 1 + 1 * 0 = 0; omega
  | ⟨2, _⟩ => show win0_12.index t (2 : Fin 3) * 512 + 1 * r.val = j.val; omega

theorem bhu_block_at (c : Dev nD) (t : Fin cfg0.N) (l : Fin 8) (j : Fin 2048) (r : Fin 512) (hl : t.val / 4 = l.val)
    (hj : j.val = 512 * (t.val % 4) + r.val) :
    (iblk0 (F := Ideal) V c 13 t : FVec Ideal S1x1x512 .f32) (ix3 0 0 r) = bhuA V c (ix3 l 0 j) := by
  obtain ⟨e0, e1, e2⟩ := (idx_lanes t).2.2.2.2.2.1
  unfold iblk0
  rw [View.read_apply]
  show V c main_v9 _ = V c main_v9 _
  congr 1
  funext a
  apply Fin.ext
  match a with
  | ⟨0, _⟩ => show win0_13.index t (0 : Fin 3) * 1 + 1 * 0 = l.val; omega
  | ⟨1, _⟩ => show win0_13.index t (1 : Fin 3) * 1 + 1 * 0 = 0; omega
  | ⟨2, _⟩ => show win0_13.index t (2 : Fin 3) * 512 + 1 * r.val = j.val; omega

/-- Two gated cells whose rows and entries agree are equal. -/
theorem cellRow_congr {a a' hv hv' w1 w1' w2 w2' w3 w3' w4 w4' w5 w5' w6 w6' : Fin 2048 → EReal}
    {b1 b1' b2 b2' b3 b3' b4 b4' b5 b5' b6 b6' hj hj' : EReal}
    (ea : ∀ k, a k = a' k) (eh : ∀ k, hv k = hv' k) (e1 : ∀ k, w1 k = w1' k) (e2 : ∀ k, w2 k = w2' k) (e3 : ∀ k, w3 k = w3' k)
    (e4 : ∀ k, w4 k = w4' k) (e5 : ∀ k, w5 k = w5' k) (e6 : ∀ k, w6 k = w6' k)
    (f1 : b1 = b1') (f2 : b2 = b2') (f3 : b3 = b3') (f4 : b4 = b4') (f5 : b5 = b5') (f6 : b6 = b6') (fh : hj = hj') :
    cellRow a hv w1 w2 w3 w4 w5 w6 b1 b2 b3 b4 b5 b6 hj = cellRow a' hv' w1' w2' w3' w4' w5' w6' b1' b2' b3' b4' b5' b6' hj' := by
  obtain rfl : a = a' := funext ea
  obtain rfl : hv = hv' := funext eh
  obtain rfl : w1 = w1' := funext e1
  obtain rfl : w2 = w2' := funext e2
  obtain rfl : w3 = w3' := funext e3
  obtain rfl : w4 = w4' := funext e4
  obtain rfl : w5 = w5' := funext e5
  obtain rfl : w6 = w6' := funext e6
  subst f1 f2 f3 f4 f5 f6 fh
  rfl

/-- The gated cell of layer l at hidden coordinate j, from the arrays as the region finds them. -/
abbrev cell (c : Dev nD) (l : Fin 8) (j : Fin 2048) : EReal :=
  cellRow (fun k => inpA V c (ix3 l 0 k)) (fun k => hidA V c (ix3 l 0 k))
    (fun k => wirA V c (ix3 l j k)) (fun k => whrA V c (ix3 l j k)) (fun k => wh1A V c (ix3 l j k))
    (fun k => wx1A V c (ix3 l j k)) (fun k => wiuA V c (ix3 l j k)) (fun k => whuA V c (ix3 l j k))
    (birA V c (ix3 l 0 j)) (bhrA V c (ix3 l 0 j)) (bh1A V c (ix3 l 0 j))
    (bx1A V c (ix3 l 0 j)) (biuA V c (ix3 l 0 j)) (bhuA V c (ix3 l 0 j))
    (hidA V c (ix3 l 0 j))

/-- After point t = 4 l + n the output block holds at lane r the cell of layer l at coordinate 512 n + r. -/
theorem point_at (c : Dev nD) (t : Fin cfg0.N) (l : Fin 8) (j : Fin 2048) (r : Fin 512) (hl : t.val / 4 = l.val)
    (hj : j.val = 512 * (t.val % 4) + r.val) :
    (outsAt0 (F := Ideal) V c t) (ix3 0 0 r) = cell V c l j := by
  unfold outsAt0
  refine (congrFun (out_block (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t)
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)) (ix3 0 0 r)).trans ?_
  refine (pay_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    (View.ld (iblk0 V c 1 t) (Rect.unit (s := S1x1x2048) (k0_off1 (grid0.coords t)) S1x1x512.size (k0_off1_inb (grid0.coords t)))) r).trans ?_
  exact cellRow_congr (fun k => inp_block_at V c t l hl k) (fun k => hid_block_at V c t l hl k)
    (fun k => wir_block_at V c t l j r hl hj k) (fun k => whr_block_at V c t l j r hl hj k) (fun k => wh1_block_at V c t l j r hl hj k)
    (fun k => wx1_block_at V c t l j r hl hj k) (fun k => wiu_block_at V c t l j r hl hj k) (fun k => whu_block_at V c t l j r hl hj k)
    (bir_block_at V c t l j r hl hj) (bhr_block_at V c t l j r hl hj) (bh1_block_at V c t l j r hl hj)
    (bx1_block_at V c t l j r hl hj) (biu_block_at V c t l j r hl hj) (bhu_block_at V c t l j r hl hj)
    ((reread_apply (grid0.coords t) (iblk0 V c 1 t) r j (by rw [coord_tile t]; exact hj)).trans (hid_block_at V c t l hl j))

/-! ## From the blocks to the array -/

/-- An index of a [1,1,512] block is (0, 0, its lane). -/
theorem idx_unit (y : S1x1x512.Idx) : y = ix3 0 0 ⟨(y 2).val, (y 2).isLt⟩ := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl

/-- What point t writes back, element by element: the block's element y lands at array index (l, 0, j) and is the cell there. -/
theorem flushed_elt (c : Dev nD) (t : Fin cfg0.N) (y : S1x1x512.Idx) (l : Fin 8) (j : Fin 2048)
    (h0 : win0_14.index t (0 : Fin 3) * 1 + 1 * (y 0).val = l.val) (h2 : win0_14.index t (2 : Fin 3) * 512 + 1 * (y 2).val = j.val) :
    ((dat0 (F := Ideal) V c).flushed 14 t : Vec Ideal S1x1x512 .f32) y = cell V c l j := by
  obtain ⟨e0, e1, e2⟩ := (idx_lanes t).2.2.2.2.2.2
  have hy0 : (y 0).val < 1 := (y 0).isLt
  have hy2 : (y 2).val < 512 := (y 2).isLt
  rw [idx_unit y]
  show (cfg0.win 14).cut (grid0.coords t) ((dat0 (F := Ideal) V c).after 14 t) _ = _
  rw [after0_14]
  exact point_at V c t l j ⟨(y 2).val, hy2⟩ (by omega) (by show j.val = 512 * (t.val % 4) + (y 2).val; omega)

/-- An index of the output array lies in point t's block iff every coordinate lies in the block's range. -/
theorem mem_out_block (t : Fin cfg0.N) (i : S8x1x2048.Idx) :
    i ∈ ((cfg0.win 14).blk t).view.set ↔ ∀ a : Fin 3, win0_14.index t a * S1x1x512.size a ≤ (i a).val
      ∧ (i a).val < win0_14.index t a * S1x1x512.size a + S1x1x512.size a := by
  show i ∈ ((View.whole main_v10).slice (win0_14.rect t)).set ↔ _
  rw [View.set_slice_whole, Rect.mem_set_unit]
  exact Iff.rfl

/-- After region 0 its output array holds, at layer `l` and coordinate `j`, the gated cell of that layer's rows. -/
theorem newh_at (c : Dev nD) (l : Fin 8) (j : Fin 2048) :
    ((dat0 (F := Ideal) V c).arrAt 14 cfg0.N : S8x1x2048.Idx → EReal) (ix3 l 0 j)
      = cellRow (fun k => inpA V c (ix3 l 0 k)) (fun k => hidA V c (ix3 l 0 k))
          (fun k => wirA V c (ix3 l j k)) (fun k => whrA V c (ix3 l j k)) (fun k => wh1A V c (ix3 l j k))
          (fun k => wx1A V c (ix3 l j k)) (fun k => wiuA V c (ix3 l j k)) (fun k => whuA V c (ix3 l j k))
          (birA V c (ix3 l 0 j)) (bhrA V c (ix3 l 0 j)) (bh1A V c (ix3 l 0 j))
          (bx1A V c (ix3 l 0 j)) (biuA V c (ix3 l 0 j)) (bhuA V c (ix3 l 0 j))
          (hidA V c (ix3 l 0 j)) := by
  have hN : cfg0.N = 32 := N_0
  have hl : l.val < 8 := l.isLt
  have hj : j.val < 2048 := j.isLt
  -- the point whose block holds (l, 0, j): layer l, tile j / 512
  have ht : 4 * l.val + j.val / 512 < cfg0.N := by omega
  obtain ⟨e0, e1, e2⟩ := (idx_lanes ⟨4 * l.val + j.val / 512, ht⟩).2.2.2.2.2.2
  have hmem : (ix3 l 0 j : S8x1x2048.Idx) ∈ ((cfg0.win 14).blk ⟨4 * l.val + j.val / 512, ht⟩).view.set := by
    rw [mem_out_block]
    intro a
    match a with
    | ⟨0, _⟩ =>
      show win0_14.index ⟨4 * l.val + j.val / 512, ht⟩ (0 : Fin 3) * 1 ≤ l.val
        ∧ l.val < win0_14.index ⟨4 * l.val + j.val / 512, ht⟩ (0 : Fin 3) * 1 + 1
      dsimp only at e0; omega
    | ⟨1, _⟩ =>
      show win0_14.index ⟨4 * l.val + j.val / 512, ht⟩ (1 : Fin 3) * 1 ≤ 0
        ∧ 0 < win0_14.index ⟨4 * l.val + j.val / 512, ht⟩ (1 : Fin 3) * 1 + 1
      omega
    | ⟨2, _⟩ =>
      show win0_14.index ⟨4 * l.val + j.val / 512, ht⟩ (2 : Fin 3) * 512 ≤ j.val
        ∧ j.val < win0_14.index ⟨4 * l.val + j.val / 512, ht⟩ (2 : Fin 3) * 512 + 512
      dsimp only at e2; omega
  exact (dat0 (F := Ideal) V c).arrAt_forall_of_flushed 14
    (fun (i : S8x1x2048.Idx) (v : EReal) => ∀ (l : Fin 8) (j : Fin 2048), i = ix3 l 0 j → v = cell V c l j)
    (fun t _ y l j hij => flushed_elt V c t y l j (congrArg (fun i => (i 0).val) hij) (congrArg (fun i => (i 2).val) hij))
    cfg0.N ⟨4 * l.val + j.val / 512, ht⟩ (ix3 l 0 j) ht (flush0_14 _) hmem l j rfl

end Cert.KernelIdeal.R0

end
-- ==== Proof.Region1.lean ====
/-
  Region 1: the read-out and its log-softmax, at one grid point.

  The single point stages the last layer's new hidden row (block (7, 0, 0) of the eight rows), the read-out weights
  padded to 1024 rows and the bias padded to 1024 lanes, each whole. The body rectifies the row, takes its inner
  product with each of the 1024 weight rows and adds the bias: 1024 logits. It sets lanes 1000 .. 1023 to the constant
  the statement names -∞ (the lane test compares the lane number with 1000), and takes the log-softmax over the 1024
  lanes: the lane maximum, a fold from -∞ whose maximum with -∞ once more changes nothing; the exponentials of the
  shifted lanes; their lane sum; its logarithm. The body's one store writes all 1024 lanes and the point's block is
  the whole output array, so after the point the array holds the body's value lane by lane.
-/
import proofs.«417925_j78761110274471_3_alg».proof.Proof.Gen.KernelIdeal.Frame
import proofs.«417925_j78761110274471_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.SL.Sem
open Idealize.ShloMosaic.ValueIdx Cert.GruFc

/- The TensorCore's buffer contents when the region is entered. -/
variable (V : (c : Dev nD) → (b : Ref sig .tc) → Buf (Elt Ideal) ((c : Thread nD τ).loc b))

/-- The arrays region 1 stages, by their literal types: the new hidden rows, the read-out weights padded to 1024
    rows and the read-out bias padded to 1024 lanes. -/
abbrev newhA (c : Dev nD) : S8x1x2048.Idx → EReal := V c main_v10
abbrev wpadA (c : Dev nD) : S1024x2048.Idx → EReal := V c main_v11
abbrev bpadA (c : Dev nD) : S1x1024.Idx → EReal := V c main_v13

/-- The word the kernel names "neg_big" denotes -∞. -/
theorem neg_big_eq : Named.named (F := Ideal) Cert.KernelIdeal.κ "neg_big" (φ := .f32) 0xFF333332#32 = (⊥ : EReal) :=
  IdealRules.named_const.ideal_named_scalar _ _ _ _ rfl

/-- The IEEE word of -∞ denotes -∞. -/
theorem ofBits_neg_inf : Ideal.ofBits .f32 0xFF800000#32 = (⊥ : EReal) := by
  simp [Ideal.ofBits, Ideal.ieee]

/-- The rectified hidden row as the [1,2048] left operand of the product. -/
def reluRow (x0 : Vec Ideal S1x1x2048 .f32) : FVec Ideal S1x2048 .f32 :=
  have v1 : FVec Ideal S2048 .f32 := shapeCast S2048 x0 shapeCasts_S1x1x2048_S2048
  have v3 : FVec Ideal S2048 .f32 := maximumf v1 (broadcast S2048 (Scalar.ofBits .f32 0x00000000#32))
  shapeCast S1x2048 v3 shapeCasts_S2048_S1x2048

/-- The logits before masking: the rectified row against the weights, plus the bias. -/
def lanes (x0 : Vec Ideal S1x1x2048 .f32) (x1 : Vec Ideal S1024x2048 .f32) (x2 : Vec Ideal S1x1024 .f32) : FVec Ideal S1x1024 .f32 :=
  have v6 : FVec Ideal S1024x2048 .f32 := shapeCast S1024x2048 x1 shapeCasts_S1024x2048_S1024x2048
  have v9 : FVec Ideal S1x1024 .f32 := shapeCast S1x1024 x2 shapeCasts_S1x1024_S1x1024
  addf (matmul dot_S1x2048_S1024x2048_S1x1024_1_1_0_0_n_n (some .fp32) (reluRow x0) v6 (constant S1x1024 .f32 0x00000000#32)) v9

/-- The logits with the lanes from 1000 on replaced by the named constant. -/
def lanesMasked (x0 : Vec Ideal S1x1x2048 .f32) (x1 : Vec Ideal S1024x2048 .f32) (x2 : Vec Ideal S1x1024 .f32) : FVec Ideal S1x1024 .f32 :=
  have cst_7 : Ideal .f32 := Named.named Cert.KernelIdeal.κ "neg_big" 0xFF333332#32
  select (cmpi .slt (iota .tc S1x1024 32 [1] iota_S1x1024_d1_w32) (broadcast S1x1024 1000#32)) (lanes x0 x1 x2)
    (broadcast S1x1024 cst_7)

/-- The row maximum of a [1,1024] vector, kept as a [1,1024] splat. -/
def rowMax (u : FVec Ideal S1x1024 .f32) : FVec Ideal S1x1024 .f32 :=
  have v16 : FVec Ideal S1 .f32 := multiReduction .maximumf [1] S1 u 0xFF800000#32 reduces_S1x1024_S1 (.inl rfl) rfl
  have v18 : FVec Ideal S1 .f32 := maximumf (broadcast S1 (Scalar.ofBits .f32 0xFF800000#32)) v16
  have v19 : FVec Ideal S1x1 .f32 := shapeCast S1x1 v18 shapeCasts_S1_S1x1
  broadcastTo S1x1024 v19 broadcasts_S1x1_S1x1024

/-- The log-softmax of a [1,1024] vector as the kernel spells it. -/
def lsm (u : FVec Ideal S1x1024 .f32) : FVec Ideal S1x1024 .f32 :=
  have v21 : FVec Ideal S1x1024 .f32 := subf u (rowMax u)
  have v22 : FVec Ideal S1x1024 .f32 := exp v21
  have v23 : FVec Ideal S1 .f32 := multiReduction .add [1] S1 v22 0x00000000#32 reduces_S1x1024_S1 (.inl rfl) rfl
  have v24 : FVec Ideal S1x1 .f32 := shapeCast S1x1 v23 shapeCasts_S1_S1x1
  have v25 : FVec Ideal S1x1 .f32 := log v24
  subf v21 (broadcastTo S1x1024 v25 broadcasts_S1x1_S1x1024)

/-- The kernel's body is the log-softmax of the masked logits. -/
theorem pay_eq (x0 : Vec Ideal S1x1x2048 .f32) (x1 : Vec Ideal S1024x2048 .f32) (x2 : Vec Ideal S1x1024 .f32) :
    k1_pay1 (F := Ideal) x0 x1 x2 = lsm (lanesMasked x0 x1 x2) := rfl

/-- A [a,1] column broadcast to [a,b] reads, at (p, c), the column's entry at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index over the one reduced entry with lane k put back is (0, k). -/
theorem lift_lane (j : S1.Idx) (k : Fin 1024) : reduces_S1x1024_S1.lift j k = ix2 0 k := by
  funext c
  apply Fin.ext
  match c with
  | ⟨0, _⟩ =>
    show reduces_S1x1024_S1.liftVal j k.val 0 = 0
    unfold Shape.Reduces.liftVal
    rw [dif_neg (by decide), dif_pos (by decide)]
    have h1 : ∀ x : Fin S1.rank, (j x).val < 1 := fun x => by
      have hx := (j x).isLt
      have e : S1.size x = 1 := by
        match x with
        | ⟨0, _⟩ => rfl
      omega
    exact Nat.lt_one_iff.mp (h1 _)
  | ⟨1, _⟩ => rfl

/-- A lane maximum from -∞ is the maximum over the lanes. -/
theorem rowmax_fold (u : FVec Ideal S1x1024 .f32) (j : S1.Idx) :
    multiReduction (F := Ideal) .maximumf [1] S1 u 0xFF800000#32 reduces_S1x1024_S1 (.inl rfl) rfl j
      = vmax (fun l : Fin 1024 => u (ix2 0 l)) := by
  refine (Ideal.multiReduction_maximumf_single u 0xFF800000#32 reduces_S1x1024_S1 (.inl rfl) rfl j).trans ?_
  have hf : (u ∘ reduces_S1x1024_S1.lift j) = fun l : Fin 1024 => u (ix2 0 l) :=
    funext fun k => congrArg u (lift_lane j k)
  show Finset.fold max (Ideal.ofBits .f32 0xFF800000#32) (u ∘ reduces_S1x1024_S1.lift j) (Finset.univ : Finset (Fin 1024)) = _
  rw [ofBits_neg_inf]
  exact congrArg (fun f : Fin 1024 → EReal => Finset.fold max ⊥ f Finset.univ) hf

/-- A lane sum from 0 is the sum over the lanes. -/
theorem rowsum (u : FVec Ideal S1x1024 .f32) (j : S1.Idx) :
    multiReduction (F := Ideal) .add [1] S1 u 0x00000000#32 reduces_S1x1024_S1 (.inl rfl) rfl j
      = ∑ l : Fin 1024, u (ix2 0 l) := by
  refine (Ideal.multiReduction_add_single u 0x00000000#32 reduces_S1x1024_S1 (.inl rfl) rfl j).trans ?_
  exact Finset.sum_congr rfl fun k _ => congrArg u (lift_lane j k)

/-- The kernel's row maximum at a lane: the maximum of -∞ and the lane maximum, which is the lane maximum. -/
theorem rowMax_at (u : FVec Ideal S1x1024 .f32) (l : Fin 1024) :
    rowMax u (ix2 0 l) = vmax (fun l : Fin 1024 => u (ix2 0 l)) := by
  unfold rowMax
  rw [broadcastTo_a1_ab_apply (a := 1) (b := 1024), shapeCast_a_1a_apply (a := 1), maximumf_apply, rowmax_fold, broadcast_apply]
  show max (Ideal.ofBits .f32 0xFF800000#32) _ = _
  rw [ofBits_neg_inf]
  exact max_eq_right bot_le

/-- The kernel's log-softmax at a lane is the log-softmax of the row. -/
theorem lsm_at (u : FVec Ideal S1x1024 .f32) (l : Fin 1024) :
    lsm u (ix2 0 l) = logSoftmax (fun k : Fin 1024 => u (ix2 0 k)) l := by
  have hM : ∀ k : Fin 1024, rowMax u (ix2 0 k) = vmax (fun l : Fin 1024 => u (ix2 0 l)) := rowMax_at u
  have hS : multiReduction (F := Ideal) .add [1] S1 (exp (subf u (rowMax u))) 0x00000000#32 reduces_S1x1024_S1 (.inl rfl) rfl (ix1 0)
      = ∑ k : Fin 1024, Ideal.exp (u (ix2 0 k) - vmax (fun l : Fin 1024 => u (ix2 0 l))) := by
    refine (rowsum _ _).trans (Finset.sum_congr rfl fun k _ => ?_)
    show Ideal.exp (u (ix2 0 k) - rowMax u (ix2 0 k)) = _
    rw [hM]
  unfold lsm
  rw [subf_apply, subf_apply, hM, broadcastTo_a1_ab_apply (a := 1) (b := 1024)]
  show _ - Ideal.log (shapeCast S1x1 (multiReduction (F := Ideal) .add [1] S1 (exp (subf u (rowMax u))) 0x00000000#32 reduces_S1x1024_S1 (.inl rfl) rfl) shapeCasts_S1_S1x1 (ix2 0 0)) = _
  rw [shapeCast_a_1a_apply (a := 1), hS]
  rfl

/-- The product's left index at output (i, q): row i 0, contraction coordinate. -/
theorem lhs_fc_0 (i : S1x1024.Idx) (q : dot_S1x2048_S1024x2048_S1x1024_1_1_0_0_n_n.contr.Idx) :
    (dot_S1x2048_S1024x2048_S1x1024_1_1_0_0_n_n.lhsIdx i q 0).val = (i 0).val := by
  unfold DotDims.lhsIdx
  rw [dif_neg (show ¬(0 : Fin S1x2048.rank) ∈ dot_S1x2048_S1024x2048_S1x1024_1_1_0_0_n_n.lhsBatch by decide), dif_pos (show (0 : Fin S1x2048.rank) ∈ dot_S1x2048_S1024x2048_S1x1024_1_1_0_0_n_n.lhsNonContracting by decide)]
  rfl
theorem lhs_fc_1 (i : S1x1024.Idx) (q : dot_S1x2048_S1024x2048_S1x1024_1_1_0_0_n_n.contr.Idx) :
    (dot_S1x2048_S1024x2048_S1x1024_1_1_0_0_n_n.lhsIdx i q 1).val = (q ⟨0, by decide⟩).val :=
  dot_S1x2048_S1024x2048_S1x1024_1_1_0_0_n_n.lhsIdx_val_of_single rfl i q
/-- The product's right index at output (i, q): the weight row is the output lane. -/
theorem rhs_fc_0 (i : S1x1024.Idx) (q : dot_S1x2048_S1024x2048_S1x1024_1_1_0_0_n_n.contr.Idx) :
    (dot_S1x2048_S1024x2048_S1x1024_1_1_0_0_n_n.rhsIdx i q 0).val = (i 1).val := by
  unfold DotDims.rhsIdx
  rw [dif_neg (show ¬(0 : Fin S1024x2048.rank) ∈ dot_S1x2048_S1024x2048_S1x1024_1_1_0_0_n_n.rhsBatch by decide), dif_pos (show (0 : Fin S1024x2048.rank) ∈ dot_S1x2048_S1024x2048_S1x1024_1_1_0_0_n_n.rhsNonContracting by decide)]
  rfl
theorem rhs_fc_1 (i : S1x1024.Idx) (q : dot_S1x2048_S1024x2048_S1x1024_1_1_0_0_n_n.contr.Idx) :
    (dot_S1x2048_S1024x2048_S1x1024_1_1_0_0_n_n.rhsIdx i q 1).val = (q ⟨0, by decide⟩).val :=
  dot_S1x2048_S1024x2048_S1x1024_1_1_0_0_n_n.rhsIdx_val_of_single rfl i q

/-- The product into the zero splat at lane l: the row against weight row l, summed over the 2048 coordinates. -/
theorem matmul_at (a : FVec Ideal S1x2048 .f32) (w : FVec Ideal S1024x2048 .f32) (l : Fin 1024) :
    matmul dot_S1x2048_S1024x2048_S1x1024_1_1_0_0_n_n (some .fp32) a w (constant S1x1024 .f32 0x00000000#32) (ix2 0 l)
      = ∑ k : Fin 2048, a (ix2 0 k) * w (ix2 l k) := by
  simp only [matmul]
  rw [Ideal.matmul_constant_zero_apply, ← Equiv.sum_comp (ValueIdx.contrEquiv1 dot_S1x2048_S1024x2048_S1x1024_1_1_0_0_n_n 2048 rfl rfl).symm]
  refine Finset.sum_congr rfl fun k _ => ?_
  have hk := ValueIdx.contrEquiv1_symm_val dot_S1x2048_S1024x2048_S1x1024_1_1_0_0_n_n 2048 rfl rfl k
  have el : dot_S1x2048_S1024x2048_S1x1024_1_1_0_0_n_n.lhsIdx (ix2 0 l) ((ValueIdx.contrEquiv1 dot_S1x2048_S1024x2048_S1x1024_1_1_0_0_n_n 2048 rfl rfl).symm k) = ix2 0 k := funext fun c => Fin.ext (by
    match c with
    | ⟨0, _⟩ => exact lhs_fc_0 _ _
    | ⟨1, _⟩ => exact (lhs_fc_1 _ _).trans hk)
  have er : dot_S1x2048_S1024x2048_S1x1024_1_1_0_0_n_n.rhsIdx (ix2 0 l) ((ValueIdx.contrEquiv1 dot_S1x2048_S1024x2048_S1x1024_1_1_0_0_n_n 2048 rfl rfl).symm k) = ix2 l k := funext fun c => Fin.ext (by
    match c with
    | ⟨0, _⟩ => exact rhs_fc_0 _ _
    | ⟨1, _⟩ => exact (rhs_fc_1 _ _).trans hk)
  rw [el, er]

/-- The rectified row at coordinate k. -/
theorem reluRow_at (x0 : Vec Ideal S1x1x2048 .f32) (k : Fin 2048) : reluRow x0 (ix2 0 k) = max (x0 (ix3 0 0 k)) 0 := by
  unfold reluRow
  rw [shapeCast_a_1a_apply (a := 2048), maximumf_apply, broadcast_apply]
  show max (shapeCast S2048 x0 shapeCasts_S1x1x2048_S2048 (ix1 k)) (Ideal.ofBits .f32 0x00000000#32) = _
  rw [Ideal.ofBits_zero_f32]
  congr 1
  refine shapeCast_apply x0 _ _ _ ?_
  rw [Shape.rowMajor_val_three, Shape.rowMajor_val_one]
  show (0 * 1 + 0) * 2048 + k.val = k.val
  omega

/-- A logit before masking: the rectified row against weight row l, plus the bias. -/
theorem lanes_at (x0 : Vec Ideal S1x1x2048 .f32) (x1 : Vec Ideal S1024x2048 .f32) (x2 : Vec Ideal S1x1024 .f32) (l : Fin 1024) :
    lanes x0 x1 x2 (ix2 0 l) = logit (fun k => x0 (ix3 0 0 k)) (fun k => x1 (ix2 l k)) (x2 (ix2 0 l)) := by
  unfold lanes
  rw [addf_apply, matmul_at, shapeCast_self, shapeCast_self]
  unfold logit
  congr 1
  refine Finset.sum_congr rfl fun k _ => ?_
  rw [reluRow_at]

/-- The lane test: among the 1024 lanes, the signed comparison of the lane number with 1000 holds below 1000 only. -/
theorem lane_test : ∀ l : Fin 1024, IntOp.cmpi .slt (BitVec.ofNat 32 l.val) 1000#32 = if l.val < 1000 then 1#1 else 0#1 := by
  decide +kernel

/-- The masked vector at a lane: the logit below lane 1000, -∞ from there on. -/
theorem lanesMasked_at (x0 : Vec Ideal S1x1x2048 .f32) (x1 : Vec Ideal S1024x2048 .f32) (x2 : Vec Ideal S1x1024 .f32) (l : Fin 1024) :
    lanesMasked x0 x1 x2 (ix2 0 l)
      = masked (fun l' : Fin 1024 => logit (fun k => x0 (ix3 0 0 k)) (fun k => x1 (ix2 l' k)) (x2 (ix2 0 l'))) l := by
  unfold lanesMasked
  rw [select_apply]
  have hc : cmpi .slt (iota .tc S1x1024 32 [1] iota_S1x1024_d1_w32) (broadcast S1x1024 1000#32) (ix2 0 l)
      = if l.val < 1000 then 1#1 else 0#1 := by
    show IntOp.cmpi .slt (iota .tc S1x1024 32 [1] iota_S1x1024_d1_w32 (ix2 0 l)) 1000#32 = _
    rw [iota_single_apply]
    exact lane_test l
  rw [hc]
  unfold masked
  by_cases hl : l.val < 1000
  · rw [if_pos hl, select_one, lanes_at]
    exact (if_pos hl).symm
  · rw [if_neg hl, select_zero, broadcast_apply]
    exact neg_big_eq.trans (if_neg hl).symm

/-- The kernel's body at lane l: the log-softmax over the 1024 lanes of the masked logits. -/
theorem pay_at (x0 : Vec Ideal S1x1x2048 .f32) (x1 : Vec Ideal S1024x2048 .f32) (x2 : Vec Ideal S1x1024 .f32) (l : Fin 1024) :
    k1_pay1 (F := Ideal) x0 x1 x2 (ix2 0 l)
      = logSoftmax (masked fun l' : Fin 1024 => logit (fun k => x0 (ix3 0 0 k)) (fun k => x1 (ix2 l' k)) (x2 (ix2 0 l'))) l := by
  rw [pay_eq, lsm_at]
  exact congrArg (fun z : Fin 1024 → EReal => logSoftmax z l) (funext fun k => lanesMasked_at x0 x1 x2 k)

theorem zero2 : (![0, 0] : Fin 2 → Nat) = fun _ => 0 := funext fun a => by fin_cases a <;> rfl
theorem zero3 : (![0, 0, 0] : Fin 3 → Nat) = fun _ => 0 := funext fun a => by fin_cases a <;> rfl

/-- The one store of the body covers its whole buffer, and the loads read whole buffers: what the body leaves is its payload. -/
theorem out_eq (x0 : Vec Ideal S1x1x2048 .f32) (x1 : Vec Ideal S1024x2048 .f32) (x2 : Vec Ideal S1x1024 .f32) :
    out1_3 (F := Ideal) x0 x1 x2 = k1_pay1 x0 x1 x2 := by
  unfold out1_3
  rw [View.canon_unit_zero zero2]
  simp only [View.ld_unit_zero (S := S1x1x2048) zero3, View.ld_unit_zero (S := S1024x2048) zero2, View.ld_unit_zero (S := S1x1024) zero2]

/-- The block indices of the four windows at every point of the one-point grid: window 0 sits at row 7 of the
    hidden rows, the others at the origin of their arrays. -/
theorem idx_facts : ∀ t : Fin cfg1.N,
    win1_0.index t (0 : Fin 3) = 7 ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Row 7 of the new hidden rows, as a [1,1,2048] block. -/
def lastRow (c : Dev nD) : Vec Ideal S1x1x2048 .f32 := fun y => newhA V c (ix3 7 0 ⟨(y 2).val, (y 2).isLt⟩)

/-- What region 1 leaves in its output array: the body's payload of row 7, the padded weights and the padded bias. -/
def outG (c : Dev nD) : S1x1024.Idx → EReal := k1_pay1 (F := Ideal) (lastRow V c) (wpadA V c) (bpadA V c)

/-- Window 0's block is row 7 of the hidden rows. -/
theorem iblk_row (c : Dev nD) (t : Fin cfg1.N) : iblk1 (F := Ideal) V c 0 t = lastRow V c := by
  obtain ⟨e0, e1, e2, -⟩ := idx_facts t
  funext y
  show V c main_v10 (((cfg1.win 0).blk t).view.emb y) = V c main_v10 (ix3 7 0 ⟨(y 2).val, (y 2).isLt⟩)
  refine congrArg (V c main_v10) (funext fun a => Fin.ext ?_)
  have h0 : (y 0).val < 1 := (y 0).isLt
  have h1 : (y 1).val < 1 := (y 1).isLt
  match a with
  | ⟨0, _⟩ => show win1_0.index t (0 : Fin 3) * 1 + 1 * (y 0).val = 7; omega
  | ⟨1, _⟩ => show win1_0.index t (1 : Fin 3) * 1 + 1 * (y 1).val = 0; omega
  | ⟨2, _⟩ => show win1_0.index t (2 : Fin 3) * 2048 + 1 * (y 2).val = (y 2).val; omega

/-- Window 1's block is the whole weight array. -/
theorem iblk_w (c : Dev nD) (t : Fin cfg1.N) : iblk1 (F := Ideal) V c 1 t = wpadA V c := by
  obtain ⟨-, -, -, e3, e4, -⟩ := idx_facts t
  funext y
  show V c main_v11 (((cfg1.win 1).blk t).view.emb y) = V c main_v11 y
  refine congrArg (V c main_v11) (funext fun a => Fin.ext ?_)
  match a with
  | ⟨0, _⟩ => show win1_1.index t (0 : Fin 2) * 1024 + 1 * (y 0).val = (y 0).val; omega
  | ⟨1, _⟩ => show win1_1.index t (1 : Fin 2) * 2048 + 1 * (y 1).val = (y 1).val; omega

/-- Window 2's block is the whole bias row. -/
theorem iblk_b (c : Dev nD) (t : Fin cfg1.N) : iblk1 (F := Ideal) V c 2 t = bpadA V c := by
  obtain ⟨-, -, -, -, -, e5, e6, -⟩ := idx_facts t
  funext y
  show V c main_v13 (((cfg1.win 2).blk t).view.emb y) = V c main_v13 y
  refine congrArg (V c main_v13) (funext fun a => Fin.ext ?_)
  match a with
  | ⟨0, _⟩ => show win1_2.index t (0 : Fin 2) * 1 + 1 * (y 0).val = (y 0).val; omega
  | ⟨1, _⟩ => show win1_2.index t (1 : Fin 2) * 1024 + 1 * (y 1).val = (y 1).val; omega

/-- What the one point writes back is the whole of that array. -/
theorem flushed_eq (c : Dev nD) (t : Fin cfg1.N) :
    (dat1 (F := Ideal) V c).flushed 3 t = ((cfg1.win 3).blk t).view.read (Elt Ideal) (outG V c) := by
  show (cfg1.win 3).cut (grid1.coords t) ((dat1 (F := Ideal) V c).after 3 t) = _
  rw [after1_3, out_eq, iblk_row, iblk_w, iblk_b]
  obtain ⟨-, -, -, -, -, -, -, e7, e8⟩ := idx_facts t
  funext y
  show outG V c y = outG V c (((cfg1.win 3).blk t).view.emb y)
  refine congrArg (outG V c) (funext fun a => Fin.ext ?_)
  match a with
  | ⟨0, _⟩ => show (y 0).val = win1_3.index t (0 : Fin 2) * 1 + 1 * (y 0).val; omega
  | ⟨1, _⟩ => show (y 1).val = win1_3.index t (1 : Fin 2) * 1024 + 1 * (y 1).val; omega

/-- The one point's block is the whole output array. -/
theorem cover (i : S1x1024.Idx) :
    ∃ t : Fin cfg1.N, (cfg1.win 3).flush t = true ∧ i ∈ ((cfg1.win 3).blk t).view.set := by
  refine ⟨t1_0, flush1_3 t1_0, ?_⟩
  obtain ⟨-, -, -, -, -, -, -, e7, e8⟩ := idx_facts t1_0
  show i ∈ ((View.whole main_v14).slice (win1_3.rect t1_0)).set
  rw [View.set_slice_whole, Rect.mem_set_unit]
  intro a
  have h0 : (i 0).val < 1 := (i 0).isLt
  have h1 : (i 1).val < 1024 := (i 1).isLt
  match a with
  | ⟨0, _⟩ => show win1_3.index t1_0 (0 : Fin 2) * 1 ≤ (i 0).val ∧ (i 0).val < win1_3.index t1_0 (0 : Fin 2) * 1 + 1; omega
  | ⟨1, _⟩ => show win1_3.index t1_0 (1 : Fin 2) * 1024 ≤ (i 1).val ∧ (i 1).val < win1_3.index t1_0 (1 : Fin 2) * 1024 + 1024; omega

/-- The output array after the region. -/
theorem final (c : Dev nD) : (dat1 (F := Ideal) V c).arrAt 3 cfg1.N = outG V c :=
  (dat1 (F := Ideal) V c).arrAt_eq_of_cover 3 (outG V c) (fun t _ => flushed_eq V c t) cover

/-- After region 1 its output array holds, at lane `l`, the log-softmax over 1024 lanes of the logits of the last
    hidden row with the lanes from 1000 on set to -∞. -/
theorem outpad_at (c : Dev nD) (l : Fin 1024) :
    ((dat1 (F := Ideal) V c).arrAt 3 cfg1.N : S1x1024.Idx → EReal) (ix2 0 l)
      = logSoftmax (masked fun l' : Fin 1024 =>
          logit (fun k => newhA V c (ix3 7 0 k)) (fun k => wpadA V c (ix2 l' k)) (bpadA V c (ix2 0 l'))) l :=
  (congrFun (final V c) (ix2 0 l)).trans (pay_at (lastRow V c) (wpadA V c) (bpadA V c) l)

end Cert.KernelIdeal.R1

end
-- ==== Proof.KernelValue.lean ====
/-
  What the kernel program's two results hold, in terms of its sixteen arguments.

  The program's buffers are followed through @main: ten host operations build the per-layer input rows (the input
  vector on top of hidden rows 0..6) and give each bias stack a unit middle axis; the first region writes the new
  hidden rows; five short host stretches pad the read-out's weights to 1024 rows and its bias to 1024 lanes; the
  second region writes 1024 lanes of log-softmax; a last host operation keeps lanes 0..999. A buffer no operation
  of a stretch writes keeps its contents through it, an array a region only reads leaves it as it entered, and an
  array a region writes leaves it at what the region's write-backs fold to. Read at an index, the two results are
  the specification: the gated cell for the hidden rows, and for the log-probabilities the log-softmax of the 1000
  logits, the 24 pad lanes having been set to -∞ and so having dropped out.
-/
import proofs.«417925_j78761110274471_3_alg».proof.Proof.Gen.KernelIdeal.Frame
import proofs.«417925_j78761110274471_3_alg».proof.Proof.Spec
import proofs.«417925_j78761110274471_3_alg».proof.Proof.Region0
import proofs.«417925_j78761110274471_3_alg».proof.Proof.Region1
import Idealize.ShloMosaic.Lib.Pipeline.Value
import Idealize.ShloMosaic.Lib.ValueIdx
import Idealize.ShloMosaic.Lib.StableHlo.Run
import Idealize.ShloMosaic.Lib.KernelVsHost

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo
open Idealize.ShloMosaic.ValueIdx Cert.GruFc

variable (m : (ℓ : Loc nD τ sig) → Buf (Elt Ideal) ℓ) (ρ : Dev nD → PrngReg)

/-! ## The argument arrays, by their literal types -/

abbrev xA (c : Dev nD) : S1x1x2048.Idx → EReal := m ((c.tc : Thread nD τ).loc main_arg0)
abbrev hA (c : Dev nD) : S8x1x2048.Idx → EReal := m ((c.tc : Thread nD τ).loc main_arg1)
abbrev wirM (c : Dev nD) : S8x2048x2048.Idx → EReal := m ((c.tc : Thread nD τ).loc main_arg2)
abbrev birM (c : Dev nD) : S8x2048.Idx → EReal := m ((c.tc : Thread nD τ).loc main_arg3)
abbrev whrM (c : Dev nD) : S8x2048x2048.Idx → EReal := m ((c.tc : Thread nD τ).loc main_arg4)
abbrev bhrM (c : Dev nD) : S8x2048.Idx → EReal := m ((c.tc : Thread nD τ).loc main_arg5)
abbrev wh1M (c : Dev nD) : S8x2048x2048.Idx → EReal := m ((c.tc : Thread nD τ).loc main_arg6)
abbrev bh1M (c : Dev nD) : S8x2048.Idx → EReal := m ((c.tc : Thread nD τ).loc main_arg7)
abbrev wx1M (c : Dev nD) : S8x2048x2048.Idx → EReal := m ((c.tc : Thread nD τ).loc main_arg8)
abbrev bx1M (c : Dev nD) : S8x2048.Idx → EReal := m ((c.tc : Thread nD τ).loc main_arg9)
abbrev wiuM (c : Dev nD) : S8x2048x2048.Idx → EReal := m ((c.tc : Thread nD τ).loc main_arg10)
abbrev biuM (c : Dev nD) : S8x2048.Idx → EReal := m ((c.tc : Thread nD τ).loc main_arg11)
abbrev whuM (c : Dev nD) : S8x2048x2048.Idx → EReal := m ((c.tc : Thread nD τ).loc main_arg12)
abbrev bhuM (c : Dev nD) : S8x2048.Idx → EReal := m ((c.tc : Thread nD τ).loc main_arg13)
abbrev wfcM (c : Dev nD) : S1000x2048.Idx → EReal := m ((c.tc : Thread nD τ).loc main_arg14)
abbrev bfcM (c : Dev nD) : S1000.Idx → EReal := m ((c.tc : Thread nD τ).loc main_arg15)

/-- A host stretch leaves a buffer none of its operations writes as it found it: the buffers the stretch's
    operations write are listed, and the buffer's name is decided to be none of them. -/
macro "host_keeps" : tactic =>
  `(tactic| (refine StableHlo.after_of_forall_not_mem _ _ (List.forall_iff_forall_mem.mp ?_)
             simp only [hostOps0, hostOps1, hostOps1_1, hostOps1_2, hostOps1_3, hostOps1_4, hostOps2,
               List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ## The results walked back through the fold -/

/-- The new hidden rows at region 1's entry are what region 0's write-backs fold to: the five host stretches between
    the regions write other buffers. -/
theorem W7_v10 (c : Dev nD) :
    W7 (F := Ideal) m ρ c (Proc.devRef .tc main_v10) = (dat0 (F := Ideal) (V1 m ρ) c).arrAt 14 cfg0.N :=
  calc W7 m ρ c (Proc.devRef .tc main_v10)
    _ = W6 m ρ c (Proc.devRef .tc main_v10) := by host_keeps
    _ = W5 m ρ c (Proc.devRef .tc main_v10) := by host_keeps
    _ = W4 m ρ c (Proc.devRef .tc main_v10) := by host_keeps
    _ = W3 m ρ c (Proc.devRef .tc main_v10) := by host_keeps
    _ = W2 m ρ c (Proc.devRef .tc main_v10) := by host_keeps
    _ = (dat0 (V1 m ρ) c).arrAt 14 cfg0.N := W2_arr m ρ c 14

/-- The new hidden rows at the end: the last host operation writes another buffer and region 1 only reads them. -/
theorem W9_v10 (c : Dev nD) :
    W9 (F := Ideal) m ρ c (Proc.devRef .tc main_v10) = (dat0 (F := Ideal) (V1 m ρ) c).arrAt 14 cfg0.N :=
  calc W9 m ρ c (Proc.devRef .tc main_v10)
    _ = W8 m ρ c (Proc.devRef .tc main_v10) := by host_keeps
    _ = W7 m ρ c (Proc.devRef .tc main_v10) :=
        (W8_arr m ρ c 0).trans (((dat1 (V7 m ρ) c).arrAt_in 0 rfl _).trans (A_eq1 (V7 m ρ) c 0))
    _ = (dat0 (V1 m ρ) c).arrAt 14 cfg0.N := W7_v10 m ρ c

/-- The log-probabilities at the end: lanes 0..999 of what region 1's write-back leaves. -/
theorem W9_v15 (c : Dev nD) :
    W9 (F := Ideal) m ρ c (Proc.devRef .tc main_v15)
      = extractStridedSlice S1x1000 ![0, 0] ((dat1 (F := Ideal) (V7 m ρ) c).arrAt 3 cfg1.N) slices_S1x1024_S1x1000_0_0 := by
  show StableHlo.after hostOps2 (W8 m ρ c) (Proc.devRef .tc main_v15) = _
  after_results
  rw [show W8 m ρ c (Proc.devRef .tc main_v14) = _ from W8_arr m ρ c 3]

/-! ## Region 1's entry -/

/-- An argument no host operation and no region writes is, at region 0's exit, as launched. -/
theorem W2_arg14 (c : Dev nD) : W2 (F := Ideal) m ρ c (Proc.devRef .tc main_arg14) = m ((c.tc : Thread nD τ).loc main_arg14) :=
  calc W2 m ρ c (Proc.devRef .tc main_arg14)
    _ = W1 m ρ c (Proc.devRef .tc main_arg14) := W2_of_ne m ρ c main_arg14 (by decide)
    _ = W0 m ρ c (Proc.devRef .tc main_arg14) := by host_keeps
    _ = m ((c.tc : Thread nD τ).loc main_arg14) := rfl

theorem W2_arg15 (c : Dev nD) : W2 (F := Ideal) m ρ c (Proc.devRef .tc main_arg15) = m ((c.tc : Thread nD τ).loc main_arg15) :=
  calc W2 m ρ c (Proc.devRef .tc main_arg15)
    _ = W1 m ρ c (Proc.devRef .tc main_arg15) := W2_of_ne m ρ c main_arg15 (by decide)
    _ = W0 m ρ c (Proc.devRef .tc main_arg15) := by host_keeps
    _ = m ((c.tc : Thread nD τ).loc main_arg15) := rfl

/-- The padded read-out weights at region 1's entry: the weights padded with 24 rows of the padding value. -/
theorem W7_v11 (c : Dev nD) :
    W7 (F := Ideal) m ρ c (Proc.devRef .tc main_v11)
      = pad S1024x2048 ![0, 0] ![24, 0] ![0, 0] (m ((c.tc : Thread nD τ).loc main_arg14))
          (sitofp (F := Ideal) .f32 (constantI S_ 32 0#32)) pads_S1000x2048_S1024x2048_0240_000 h_S_ := by
  have e7 : W7 m ρ c (Proc.devRef .tc main_v11) = W6 m ρ c (Proc.devRef .tc main_v11) := by host_keeps
  have e6 : W6 m ρ c (Proc.devRef .tc main_v11) = W5 m ρ c (Proc.devRef .tc main_v11) := by host_keeps
  have e5 : W5 m ρ c (Proc.devRef .tc main_v11) = W4 m ρ c (Proc.devRef .tc main_v11) := by host_keeps
  rw [e7, e6, e5]
  show StableHlo.after hostOps1_1 (StableHlo.after hostOps1 (W2 m ρ c)) (Proc.devRef .tc main_v11) = _
  dsimp only [hostOps1_1, hostOps1, StableHlo.TRef.unary, StableHlo.TRef.binary]
  after_results
  rw [W2_arg14 m ρ c]
  rfl

/-- The padded read-out bias at region 1's entry: the bias padded with 24 lanes, given a leading unit axis. -/
theorem W7_v13 (c : Dev nD) :
    W7 (F := Ideal) m ρ c (Proc.devRef .tc main_v13)
      = broadcastInDim S1x1024 ![1] bcast_S1024_S1x1024_1
          (pad S1024 ![0] ![24] ![0] (m ((c.tc : Thread nD τ).loc main_arg15))
            (sitofp (F := Ideal) .f32 (constantI S_ 32 0#32)) pads_S1000_S1024_0240 h_S_) := by
  show StableHlo.after hostOps1_4 (StableHlo.after hostOps1_3 (StableHlo.after hostOps1_2 (W4 m ρ c))) (Proc.devRef .tc main_v13) = _
  dsimp only [hostOps1_4, hostOps1_3, hostOps1_2, StableHlo.TRef.unary, StableHlo.TRef.binary]
  after_results
  rw [W2_arg15 m ρ c]
  rfl

/-- A row below 1000 of the padded weights is the weights' row. -/
theorem wpad_at (c : Dev nD) (j : Fin 1000) (k : Fin 2048) :
    (W7 (F := Ideal) m ρ c (Proc.devRef .tc main_v11) : S1024x2048.Idx → EReal) (ix2 ⟨j.val, by have := j.isLt; omega⟩ k)
      = (m ((c.tc : Thread nD τ).loc main_arg14) : S1000x2048.Idx → EReal) (ix2 j k) := by
  rw [W7_v11 m ρ c]
  exact pad_apply_of_inside _ _ _ _ _ _ _ _ (ix2 j k) (fun a => match a with
    | ⟨0, _⟩ => by show j.val = 0 + j.val * (0 + 1); omega
    | ⟨1, _⟩ => by show k.val = 0 + k.val * (0 + 1); omega)

/-- A lane below 1000 of the padded bias is the bias' entry. -/
theorem bpad_at (c : Dev nD) (j : Fin 1000) :
    (W7 (F := Ideal) m ρ c (Proc.devRef .tc main_v13) : S1x1024.Idx → EReal) (ix2 0 ⟨j.val, by have := j.isLt; omega⟩)
      = (m ((c.tc : Thread nD τ).loc main_arg15) : S1000.Idx → EReal) (ix1 j) := by
  rw [W7_v13 m ρ c]
  refine (broadcastInDim_apply _ bcast_S1024_S1x1024_1 _ _ (ix1 ⟨j.val, by have := j.isLt; omega⟩) (fun a => match a with
    | ⟨0, _⟩ => by show j.val = if (1024 : Nat) = 1 then 0 else j.val; rw [if_neg (by decide)])).trans ?_
  exact pad_apply_of_inside _ _ _ _ _ _ _ _ (ix1 j) (fun a => match a with
    | ⟨0, _⟩ => by show j.val = 0 + j.val * (0 + 1); omega)

/-! ## Region 0's entry -/

/-- The hidden rows as region 0 finds them are the argument: the ten host operations before it write other buffers. -/
theorem V1_arg1 (c : Dev nD) : V1 (F := Ideal) m ρ c main_arg1 = m ((c.tc : Thread nD τ).loc main_arg1) :=
  calc V1 m ρ c main_arg1
    _ = W0 m ρ c (Proc.devRef .tc main_arg1) := by
        show StableHlo.after hostOps0 (W0 m ρ c) (Proc.devRef .tc main_arg1) = _
        host_keeps
    _ = m ((c.tc : Thread nD τ).loc main_arg1) := rfl

/-- A bias stack as region 0 finds it: the argument with a unit middle axis. -/
theorem V1_v4 (c : Dev nD) :
    V1 (F := Ideal) m ρ c main_v4
      = broadcastInDim S8x1x2048 ![0, 2] bcast_S8x2048_S8x1x2048_0_2 (m ((c.tc : Thread nD τ).loc main_arg3)) := by
  show StableHlo.after hostOps0 (W0 m ρ c) (Proc.devRef .tc main_v4) = _
  dsimp only [hostOps0]
  after_results

/-- Read at (l, 0, j) it is the bias at (l, j). -/
theorem bias_at (b : S8x2048.Idx → EReal) (l : Fin 8) (j : Fin 2048) :
    broadcastInDim S8x1x2048 ![0, 2] bcast_S8x2048_S8x1x2048_0_2 b (ix3 l 0 j) = b (ix2 l j) :=
  broadcastInDim_apply _ bcast_S8x2048_S8x1x2048_0_2 b _ (ix2 l j) (fun a => match a with
    | ⟨0, _⟩ => by show l.val = if (8 : Nat) = 1 then 0 else l.val; rw [if_neg (by decide)]
    | ⟨1, _⟩ => by show j.val = if (2048 : Nat) = 1 then 0 else j.val; rw [if_neg (by decide)])

/-- The per-layer input rows as region 0 finds them: the input vector stacked on hidden rows 0..6. -/
theorem V1_v3 (c : Dev nD) :
    V1 (F := Ideal) m ρ c main_v3
      = concatenate S8x1x2048 0
          [⟨S1x1x2048, broadcastInDim S1x1x2048 ![1, 2] bcast_S1x2048_S1x1x2048_1_2
              (shapeCast S1x2048 (m ((c.tc : Thread nD τ).loc main_arg0)) shapeCasts_S1x1x2048_S1x2048)⟩,
           ⟨S7x1x2048, extractStridedSlice S7x1x2048 ![0, 0, 0] (m ((c.tc : Thread nD τ).loc main_arg1)) slices_S8x1x2048_S7x1x2048_0_0_0⟩]
          concatenates_S1x1x2048_S7x1x2048_S8x1x2048_d0 := by
  show StableHlo.after hostOps0 (W0 m ρ c) (Proc.devRef .tc main_v3) = _
  dsimp only [hostOps0]
  after_results
  rfl

/-- Read at (l, 0, k): the input vector for layer 0, hidden row l - 1 above it. -/
theorem inp_at (x : S1x1x2048.Idx → EReal) (h : S8x1x2048.Idx → EReal) (l : Fin 8) (k : Fin 2048) :
    concatenate S8x1x2048 0
        [⟨S1x1x2048, broadcastInDim S1x1x2048 ![1, 2] bcast_S1x2048_S1x1x2048_1_2 (shapeCast S1x2048 x shapeCasts_S1x1x2048_S1x2048)⟩,
         ⟨S7x1x2048, extractStridedSlice S7x1x2048 ![0, 0, 0] h slices_S8x1x2048_S7x1x2048_0_0_0⟩]
        concatenates_S1x1x2048_S7x1x2048_S8x1x2048_d0 (ix3 l 0 k)
      = inpRow (fun k => x (ix3 0 0 k)) (fun l k => h (ix3 l 0 k)) l k := by
  unfold inpRow
  by_cases hl : l.val = 0
  · rw [dif_pos hl]
    refine (concatenate_pair_apply_left (t := S8x1x2048) (s₁ := S1x1x2048) (s₂ := S7x1x2048) (0 : Fin 3) _ _
      concatenates_S1x1x2048_S7x1x2048_S8x1x2048_d0 (ix3 l (0 : Fin 1) k) rfl (ix3 (0 : Fin 1) (0 : Fin 1) k)
      (fun b => match b with
        | ⟨0, _⟩ => by show 0 = l.val; omega
        | ⟨1, _⟩ => rfl
        | ⟨2, _⟩ => rfl)).trans ?_
    refine (broadcastInDim_apply (s := S1x2048) (t := S1x1x2048) _ bcast_S1x2048_S1x1x2048_1_2 _
      (ix3 (0 : Fin 1) (0 : Fin 1) k) (ix2 (0 : Fin 1) k) (fun a => match a with
      | ⟨0, _⟩ => by show 0 = if (1 : Nat) = 1 then 0 else 0; rw [if_pos rfl]
      | ⟨1, _⟩ => by show k.val = if (2048 : Nat) = 1 then 0 else k.val; rw [if_neg (by decide)])).trans ?_
    exact shapeCast_apply (s := S1x1x2048) (t := S1x2048) x shapeCasts_S1x1x2048_S1x2048 (ix2 (0 : Fin 1) k) (ix3 (0 : Fin 1) (0 : Fin 1) k)
      (by rewrite [Shape.rowMajor_val_three, Shape.rowMajor_val_two]; show (0 * 1 + 0) * 2048 + k.val = 0 * 2048 + k.val; omega)
  · rw [dif_neg hl]
    have hl7 : l.val - 1 < 7 := by have := l.isLt; omega
    have hl8 : l.val - 1 < 8 := by have := l.isLt; omega
    refine (concatenate_pair_apply_right (t := S8x1x2048) (s₁ := S1x1x2048) (s₂ := S7x1x2048) (0 : Fin 3) _ _
      concatenates_S1x1x2048_S7x1x2048_S8x1x2048_d0 (ix3 l (0 : Fin 1) k) rfl rfl
      (ix3 (⟨l.val - 1, hl7⟩ : Fin 7) (0 : Fin 1) k)
      (fun b hb => match b with
        | ⟨0, _⟩ => absurd rfl hb
        | ⟨1, _⟩ => rfl
        | ⟨2, _⟩ => rfl)
      (by show (l.val - 1) + 1 = l.val; omega)).trans ?_
    exact extractStridedSlice_apply (s := S8x1x2048) (t := S7x1x2048) ![0, 0, 0] h slices_S8x1x2048_S7x1x2048_0_0_0
      (ix3 (⟨l.val - 1, hl7⟩ : Fin 7) (0 : Fin 1) k) (ix3 (⟨l.val - 1, hl8⟩ : Fin 8) (0 : Fin 1) k) (fun a => match a with
        | ⟨0, _⟩ => by show l.val - 1 = 0 + (l.val - 1); omega
        | ⟨1, _⟩ => by show 0 = 0 + 0; rfl
        | ⟨2, _⟩ => by show k.val = 0 + k.val; omega)

/-- The six weight stacks as region 0 finds them are the arguments, for the same reason as the hidden rows. -/
theorem V1_arg2 (c : Dev nD) : V1 (F := Ideal) m ρ c main_arg2 = m ((c.tc : Thread nD τ).loc main_arg2) :=
  calc V1 m ρ c main_arg2
    _ = W0 m ρ c (Proc.devRef .tc main_arg2) := by
        show StableHlo.after hostOps0 (W0 m ρ c) (Proc.devRef .tc main_arg2) = _
        host_keeps
    _ = m ((c.tc : Thread nD τ).loc main_arg2) := rfl

theorem V1_arg4 (c : Dev nD) : V1 (F := Ideal) m ρ c main_arg4 = m ((c.tc : Thread nD τ).loc main_arg4) :=
  calc V1 m ρ c main_arg4
    _ = W0 m ρ c (Proc.devRef .tc main_arg4) := by
        show StableHlo.after hostOps0 (W0 m ρ c) (Proc.devRef .tc main_arg4) = _
        host_keeps
    _ = m ((c.tc : Thread nD τ).loc main_arg4) := rfl

theorem V1_arg6 (c : Dev nD) : V1 (F := Ideal) m ρ c main_arg6 = m ((c.tc : Thread nD τ).loc main_arg6) :=
  calc V1 m ρ c main_arg6
    _ = W0 m ρ c (Proc.devRef .tc main_arg6) := by
        show StableHlo.after hostOps0 (W0 m ρ c) (Proc.devRef .tc main_arg6) = _
        host_keeps
    _ = m ((c.tc : Thread nD τ).loc main_arg6) := rfl

theorem V1_arg8 (c : Dev nD) : V1 (F := Ideal) m ρ c main_arg8 = m ((c.tc : Thread nD τ).loc main_arg8) :=
  calc V1 m ρ c main_arg8
    _ = W0 m ρ c (Proc.devRef .tc main_arg8) := by
        show StableHlo.after hostOps0 (W0 m ρ c) (Proc.devRef .tc main_arg8) = _
        host_keeps
    _ = m ((c.tc : Thread nD τ).loc main_arg8) := rfl

theorem V1_arg10 (c : Dev nD) : V1 (F := Ideal) m ρ c main_arg10 = m ((c.tc : Thread nD τ).loc main_arg10) :=
  calc V1 m ρ c main_arg10
    _ = W0 m ρ c (Proc.devRef .tc main_arg10) := by
        show StableHlo.after hostOps0 (W0 m ρ c) (Proc.devRef .tc main_arg10) = _
        host_keeps
    _ = m ((c.tc : Thread nD τ).loc main_arg10) := rfl

theorem V1_arg12 (c : Dev nD) : V1 (F := Ideal) m ρ c main_arg12 = m ((c.tc : Thread nD τ).loc main_arg12) :=
  calc V1 m ρ c main_arg12
    _ = W0 m ρ c (Proc.devRef .tc main_arg12) := by
        show StableHlo.after hostOps0 (W0 m ρ c) (Proc.devRef .tc main_arg12) = _
        host_keeps
    _ = m ((c.tc : Thread nD τ).loc main_arg12) := rfl

/-- The other five bias stacks as region 0 finds them, each its argument with a unit middle axis. -/
theorem V1_v5 (c : Dev nD) :
    V1 (F := Ideal) m ρ c main_v5
      = broadcastInDim S8x1x2048 ![0, 2] bcast_S8x2048_S8x1x2048_0_2 (m ((c.tc : Thread nD τ).loc main_arg5)) := by
  show StableHlo.after hostOps0 (W0 m ρ c) (Proc.devRef .tc main_v5) = _
  dsimp only [hostOps0]
  after_results

theorem V1_v6 (c : Dev nD) :
    V1 (F := Ideal) m ρ c main_v6
      = broadcastInDim S8x1x2048 ![0, 2] bcast_S8x2048_S8x1x2048_0_2 (m ((c.tc : Thread nD τ).loc main_arg7)) := by
  show StableHlo.after hostOps0 (W0 m ρ c) (Proc.devRef .tc main_v6) = _
  dsimp only [hostOps0]
  after_results

theorem V1_v7 (c : Dev nD) :
    V1 (F := Ideal) m ρ c main_v7
      = broadcastInDim S8x1x2048 ![0, 2] bcast_S8x2048_S8x1x2048_0_2 (m ((c.tc : Thread nD τ).loc main_arg9)) := by
  show StableHlo.after hostOps0 (W0 m ρ c) (Proc.devRef .tc main_v7) = _
  dsimp only [hostOps0]
  after_results

theorem V1_v8 (c : Dev nD) :
    V1 (F := Ideal) m ρ c main_v8
      = broadcastInDim S8x1x2048 ![0, 2] bcast_S8x2048_S8x1x2048_0_2 (m ((c.tc : Thread nD τ).loc main_arg11)) := by
  show StableHlo.after hostOps0 (W0 m ρ c) (Proc.devRef .tc main_v8) = _
  dsimp only [hostOps0]
  after_results

theorem V1_v9 (c : Dev nD) :
    V1 (F := Ideal) m ρ c main_v9
      = broadcastInDim S8x1x2048 ![0, 2] bcast_S8x2048_S8x1x2048_0_2 (m ((c.tc : Thread nD τ).loc main_arg13)) := by
  show StableHlo.after hostOps0 (W0 m ρ c) (Proc.devRef .tc main_v9) = _
  dsimp only [hostOps0]
  after_results

/-! ## The two results are the specification -/

/-- After region 0 the new hidden rows are the specification's: each of the cell's rows and entries, read off the
    arrays the region found, is the corresponding row or entry of an argument. -/
theorem newh_arr (c : Dev nD) (l : Fin 8) (j : Fin 2048) :
    ((dat0 (F := Ideal) (V1 m ρ) c).arrAt 14 cfg0.N : S8x1x2048.Idx → EReal) (ix3 l 0 j)
      = newH (fun k => xA m c (ix3 0 0 k)) (fun l k => hA m c (ix3 l 0 k))
          (fun l j k => wirM m c (ix3 l j k)) (fun l j k => whrM m c (ix3 l j k)) (fun l j k => wh1M m c (ix3 l j k))
          (fun l j k => wx1M m c (ix3 l j k)) (fun l j k => wiuM m c (ix3 l j k)) (fun l j k => whuM m c (ix3 l j k))
          (fun l j => birM m c (ix2 l j)) (fun l j => bhrM m c (ix2 l j)) (fun l j => bh1M m c (ix2 l j))
          (fun l j => bx1M m c (ix2 l j)) (fun l j => biuM m c (ix2 l j)) (fun l j => bhuM m c (ix2 l j)) l j := by
  rw [R0.newh_at (V1 m ρ) c l j]
  unfold newH
  have e_inp : (fun k : Fin 2048 => R0.inpA (V1 m ρ) c (ix3 l 0 k))
      = inpRow (fun k => xA m c (ix3 0 0 k)) (fun l k => hA m c (ix3 l 0 k)) l :=
    funext fun k => by
      show (V1 m ρ c main_v3 : S8x1x2048.Idx → EReal) (ix3 l 0 k) = _
      rw [V1_v3 m ρ c]
      exact inp_at _ _ l k
  have e_hid : R0.hidA (V1 m ρ) c = hA m c := V1_arg1 m ρ c
  have e2 : R0.wirA (V1 m ρ) c = wirM m c := V1_arg2 m ρ c
  have e4 : R0.whrA (V1 m ρ) c = whrM m c := V1_arg4 m ρ c
  have e6 : R0.wh1A (V1 m ρ) c = wh1M m c := V1_arg6 m ρ c
  have e8 : R0.wx1A (V1 m ρ) c = wx1M m c := V1_arg8 m ρ c
  have e10 : R0.wiuA (V1 m ρ) c = wiuM m c := V1_arg10 m ρ c
  have e12 : R0.whuA (V1 m ρ) c = whuM m c := V1_arg12 m ρ c
  have b4 : R0.birA (V1 m ρ) c (ix3 l 0 j) = birM m c (ix2 l j) := by
    show (V1 m ρ c main_v4 : S8x1x2048.Idx → EReal) (ix3 l 0 j) = _
    rw [V1_v4 m ρ c]
    exact bias_at _ l j
  have b5 : R0.bhrA (V1 m ρ) c (ix3 l 0 j) = bhrM m c (ix2 l j) := by
    show (V1 m ρ c main_v5 : S8x1x2048.Idx → EReal) (ix3 l 0 j) = _
    rw [V1_v5 m ρ c]
    exact bias_at _ l j
  have b6 : R0.bh1A (V1 m ρ) c (ix3 l 0 j) = bh1M m c (ix2 l j) := by
    show (V1 m ρ c main_v6 : S8x1x2048.Idx → EReal) (ix3 l 0 j) = _
    rw [V1_v6 m ρ c]
    exact bias_at _ l j
  have b7 : R0.bx1A (V1 m ρ) c (ix3 l 0 j) = bx1M m c (ix2 l j) := by
    show (V1 m ρ c main_v7 : S8x1x2048.Idx → EReal) (ix3 l 0 j) = _
    rw [V1_v7 m ρ c]
    exact bias_at _ l j
  have b8 : R0.biuA (V1 m ρ) c (ix3 l 0 j) = biuM m c (ix2 l j) := by
    show (V1 m ρ c main_v8 : S8x1x2048.Idx → EReal) (ix3 l 0 j) = _
    rw [V1_v8 m ρ c]
    exact bias_at _ l j
  have b9 : R0.bhuA (V1 m ρ) c (ix3 l 0 j) = bhuM m c (ix2 l j) := by
    show (V1 m ρ c main_v9 : S8x1x2048.Idx → EReal) (ix3 l 0 j) = _
    rw [V1_v9 m ρ c]
    exact bias_at _ l j
  rw [e_inp, e_hid, e2, e4, e6, e8, e10, e12, b4, b5, b6, b7, b8, b9]

/-- The new hidden rows at the end of the program are the specification's. -/
theorem newh_kernel (c : Dev nD) (l : Fin 8) (j : Fin 2048) :
    (W9 (F := Ideal) m ρ c (Proc.devRef .tc main_v10) : S8x1x2048.Idx → EReal) (ix3 l 0 j)
      = newH (fun k => xA m c (ix3 0 0 k)) (fun l k => hA m c (ix3 l 0 k))
          (fun l j k => wirM m c (ix3 l j k)) (fun l j k => whrM m c (ix3 l j k)) (fun l j k => wh1M m c (ix3 l j k))
          (fun l j k => wx1M m c (ix3 l j k)) (fun l j k => wiuM m c (ix3 l j k)) (fun l j k => whuM m c (ix3 l j k))
          (fun l j => birM m c (ix2 l j)) (fun l j => bhrM m c (ix2 l j)) (fun l j => bh1M m c (ix2 l j))
          (fun l j => bx1M m c (ix2 l j)) (fun l j => biuM m c (ix2 l j)) (fun l j => bhuM m c (ix2 l j)) l j := by
  rw [W9_v10 m ρ c]
  exact newh_arr m ρ c l j

/-- The log-probabilities at the end of the program are the specification's: lane j of the 1024 the second region
    wrote, whose 24 pad lanes at -∞ drop out of the maximum and of the sum, and whose first 1000 logits are the
    read-out of the last layer's new hidden row against the unpadded weights and bias. -/
theorem out_kernel (c : Dev nD) (j : Fin 1000) :
    (W9 (F := Ideal) m ρ c (Proc.devRef .tc main_v15) : S1x1000.Idx → EReal) (ix2 0 j)
      = outLP (fun k => newH (fun k => xA m c (ix3 0 0 k)) (fun l k => hA m c (ix3 l 0 k))
          (fun l j k => wirM m c (ix3 l j k)) (fun l j k => whrM m c (ix3 l j k)) (fun l j k => wh1M m c (ix3 l j k))
          (fun l j k => wx1M m c (ix3 l j k)) (fun l j k => wiuM m c (ix3 l j k)) (fun l j k => whuM m c (ix3 l j k))
          (fun l j => birM m c (ix2 l j)) (fun l j => bhrM m c (ix2 l j)) (fun l j => bh1M m c (ix2 l j))
          (fun l j => bx1M m c (ix2 l j)) (fun l j => biuM m c (ix2 l j)) (fun l j => bhuM m c (ix2 l j)) 7 k)
          (fun j' k => wfcM m c (ix2 j' k)) (fun j' => bfcM m c (ix1 j')) j := by
  have hj : j.val < 1024 := by have := j.isLt; omega
  rw [W9_v15 m ρ c]
  refine (extractStridedSlice_apply (s := S1x1024) (t := S1x1000) ![0, 0] _ slices_S1x1024_S1x1000_0_0
    (ix2 (0 : Fin 1) j) (ix2 (0 : Fin 1) (⟨j.val, hj⟩ : Fin 1024)) (fun a => match a with
      | ⟨0, _⟩ => by show 0 = 0 + 0; rfl
      | ⟨1, _⟩ => by show j.val = 0 + j.val; omega)).trans ?_
  rw [R1.outpad_at (V7 m ρ) c ⟨j.val, hj⟩]
  rw [logSoftmax_masked _ j]
  unfold outLP
  congr 1
  funext j'
  have hj' : j'.val < 1024 := by have := j'.isLt; omega
  show logit (fun k => R1.newhA (V7 m ρ) c (ix3 7 0 k)) (fun k => R1.wpadA (V7 m ρ) c (ix2 (⟨j'.val, hj'⟩ : Fin 1024) k))
      (R1.bpadA (V7 m ρ) c (ix2 0 (⟨j'.val, hj'⟩ : Fin 1024))) = _
  have e_h : (fun k : Fin 2048 => R1.newhA (V7 m ρ) c (ix3 7 0 k))
      = fun k => newH (fun k => xA m c (ix3 0 0 k)) (fun l k => hA m c (ix3 l 0 k))
          (fun l j k => wirM m c (ix3 l j k)) (fun l j k => whrM m c (ix3 l j k)) (fun l j k => wh1M m c (ix3 l j k))
          (fun l j k => wx1M m c (ix3 l j k)) (fun l j k => wiuM m c (ix3 l j k)) (fun l j k => whuM m c (ix3 l j k))
          (fun l j => birM m c (ix2 l j)) (fun l j => bhrM m c (ix2 l j)) (fun l j => bh1M m c (ix2 l j))
          (fun l j => bx1M m c (ix2 l j)) (fun l j => biuM m c (ix2 l j)) (fun l j => bhuM m c (ix2 l j)) 7 k :=
    funext fun k => by
      show (W7 m ρ c (Proc.devRef .tc main_v10) : S8x1x2048.Idx → EReal) (ix3 7 0 k) = _
      rw [W7_v10 m ρ c]
      exact newh_arr m ρ c 7 k
  have e_w : (fun k : Fin 2048 => R1.wpadA (V7 m ρ) c (ix2 (⟨j'.val, hj'⟩ : Fin 1024) k)) = fun k => wfcM m c (ix2 j' k) :=
    funext fun k => wpad_at m ρ c j' k
  have e_b : R1.bpadA (V7 m ρ) c (ix2 0 (⟨j'.val, hj'⟩ : Fin 1024)) = bfcM m c (ix1 j') := bpad_at m ρ c j'
  rw [e_h, e_w, e_b]

end Cert.KernelIdeal.KV

end
-- ==== Proof.RefSpec.lean ====
/-
  The reference program computes the specification.

  Its 73 host operations are read one at a time: each layout operation (reshape, broadcast, slice, transpose) at an
  index; each batched product as a sum over the contracted coordinate; the logistic function as jax expands it,
  1 / (1 + e^(-x)); the concatenation that makes the per-layer input rows by its two pieces; the two reductions of the
  log-softmax as a fold of the maximum and a sum.
-/
import proofs.«417925_j78761110274471_3_alg».proof.Proof.Gen.ReferenceIdeal.Read
import proofs.«417925_j78761110274471_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefSpec

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.GruFc

section Stages

variable (x0 : (⟨S1x1x2048, .f32⟩ : BufTy).Contents (Elt Ideal)) (x1 : (⟨S8x1x2048, .f32⟩ : BufTy).Contents (Elt Ideal))
  (x2 : (⟨S8x2048x2048, .f32⟩ : BufTy).Contents (Elt Ideal)) (x3 : (⟨S8x2048, .f32⟩ : BufTy).Contents (Elt Ideal))
  (x4 : (⟨S8x2048x2048, .f32⟩ : BufTy).Contents (Elt Ideal)) (x5 : (⟨S8x2048, .f32⟩ : BufTy).Contents (Elt Ideal))
  (x6 : (⟨S8x2048x2048, .f32⟩ : BufTy).Contents (Elt Ideal)) (x7 : (⟨S8x2048, .f32⟩ : BufTy).Contents (Elt Ideal))
  (x8 : (⟨S8x2048x2048, .f32⟩ : BufTy).Contents (Elt Ideal)) (x9 : (⟨S8x2048, .f32⟩ : BufTy).Contents (Elt Ideal))
  (x10 : (⟨S8x2048x2048, .f32⟩ : BufTy).Contents (Elt Ideal)) (x11 : (⟨S8x2048, .f32⟩ : BufTy).Contents (Elt Ideal))
  (x12 : (⟨S8x2048x2048, .f32⟩ : BufTy).Contents (Elt Ideal)) (x13 : (⟨S8x2048, .f32⟩ : BufTy).Contents (Elt Ideal))
  (x14 : (⟨S1000x2048, .f32⟩ : BufTy).Contents (Elt Ideal)) (x15 : (⟨S1000, .f32⟩ : BufTy).Contents (Elt Ideal))

/-! ### The layer's input row: the concatenation read at (l, 0, k) -/

/-- Layer 0 reads the input vector: the first piece of the concatenation, a reshape and a broadcast of it. -/
theorem v3_first (k : Fin 2048) :
    val_main_v3 (F := Ideal) x0 x1 (ix3 0 0 k) = x0 (ix3 0 0 k) := by
  unfold val_main_v3
  refine (concatenate_pair_apply_left (t := S8x1x2048) (s₁ := S1x1x2048) (s₂ := S7x1x2048) (0 : Fin 3)
    (val_main_v1 (F := Ideal) x0) (val_main_v2 (F := Ideal) x1) concatenates_S1x1x2048_S7x1x2048_S8x1x2048_d0
    (ix3 0 0 k) rfl (ix3 0 0 k) (fun b => by match b with | ⟨0, _⟩ => rfl | ⟨1, _⟩ => rfl | ⟨2, _⟩ => rfl)).trans ?_
  rw [val_main_v1_apply, val_main_v0_apply]
  refine congrArg x0 (funext fun a => Fin.ext ?_)
  match a with
  | ⟨0, _⟩ => rfl
  | ⟨1, _⟩ => rfl
  | ⟨2, _⟩ => show (0 * 2048 + k.val) % 2048 = k.val; have := k.isLt; omega

/-- Layer l > 0 reads the original hidden row l - 1: the second piece, rows 0..6 of the hidden state. -/
theorem v3_rest (l : Fin 8) (hl : ¬ l.val = 0) (k : Fin 2048) :
    val_main_v3 (F := Ideal) x0 x1 (ix3 l 0 k) = x1 (ix3 ⟨l.val - 1, by have := l.isLt; omega⟩ 0 k) := by
  unfold val_main_v3
  have h7 : l.val - 1 < 7 := by have := l.isLt; omega
  refine (concatenate_pair_apply_right (t := S8x1x2048) (s₁ := S1x1x2048) (s₂ := S7x1x2048) (0 : Fin 3)
    (val_main_v1 (F := Ideal) x0) (val_main_v2 (F := Ideal) x1) concatenates_S1x1x2048_S7x1x2048_S8x1x2048_d0
    (ix3 l 0 k) rfl rfl (ix3 (⟨l.val - 1, h7⟩ : Fin 7) 0 k)
    (fun b hb => by
      match b, hb with
      | ⟨0, _⟩, hb => exact absurd (Fin.ext rfl) hb
      | ⟨1, _⟩, _ => rfl
      | ⟨2, _⟩, _ => rfl)
    (by show (l.val - 1) + 1 = l.val; omega)).trans ?_
  rw [val_main_v2_apply]
  exact congrArg x1 (funext fun a => by match a with | ⟨0, _⟩ => rfl | ⟨1, _⟩ => rfl | ⟨2, _⟩ => rfl)

/-- The concatenation's row l is the specification's input row of layer l. -/
theorem v3_at (l : Fin 8) (k : Fin 2048) :
    val_main_v3 (F := Ideal) x0 x1 (ix3 l 0 k)
      = inpRow (fun k => x0 (ix3 0 0 k)) (fun l k => x1 (ix3 l 0 k)) l k := by
  unfold inpRow
  by_cases hl : l.val = 0
  · simp only [dif_pos hl]
    have e : l = 0 := Fin.ext hl
    subst e
    exact v3_first x0 x1 k
  · simp only [dif_neg hl]
    exact v3_rest x0 x1 l hl k

/-- The same, as an equation of rows. -/
theorem v3_row (l : Fin 8) :
    (fun k : Fin 2048 => val_main_v3 (F := Ideal) x0 x1 (ix3 l 0 k))
      = inpRow (fun k => x0 (ix3 0 0 k)) (fun l k => x1 (ix3 l 0 k)) l :=
  funext fun k => v3_at x0 x1 l k

/-! ### The six affine rows -/

/-- A batched product read at (l, 0, j), plus the bias broadcast there: the sum over the contracted coordinate k of
    the left row l at k times the weight row (l, j) at k, plus the bias entry (l, j). -/
theorem aff_at (y : (⟨S8x1x2048, .f32⟩ : BufTy).Contents (Elt Ideal)) (W : (⟨S8x2048x2048, .f32⟩ : BufTy).Contents (Elt Ideal))
    (b : (⟨S8x2048, .f32⟩ : BufTy).Contents (Elt Ideal)) (l : Fin 8) (j : Fin 2048) :
    (∑ k : Fin 2048, y (lidx_main_v4 (ix3 l 0 j) k) * W (ridx_main_v4 (ix3 l 0 j) k)) + b (idx_main_v5 (ix3 l 0 j))
      = affRow (fun k => y (ix3 l 0 k)) (fun k => W (ix3 l j k)) (b (ix2 l j)) := by
  unfold affRow
  have e1 : ∀ k : Fin 2048, lidx_main_v4 (ix3 l 0 j) k = ix3 l 0 k := fun k => funext fun a => by
    match a with | ⟨0, _⟩ => rfl | ⟨1, _⟩ => rfl | ⟨2, _⟩ => rfl
  have e2 : ∀ k : Fin 2048, ridx_main_v4 (ix3 l 0 j) k = ix3 l j k := fun k => funext fun a => by
    match a with | ⟨0, _⟩ => rfl | ⟨1, _⟩ => rfl | ⟨2, _⟩ => rfl
  have e3 : idx_main_v5 (ix3 l 0 j) = ix2 l j := funext fun a => by
    match a with | ⟨0, _⟩ => rfl | ⟨1, _⟩ => rfl
  rw [e3]
  exact congrArg (· + b (ix2 l j)) (Finset.sum_congr rfl fun k _ => by rw [e1 k, e2 k])

variable (l : Fin 8) (j : Fin 2048)

/-- W_ir a + b_ir. -/
theorem v6_at : val_main_v6 (F := Ideal) x0 x1 x2 x3 (ix3 l 0 j)
    = affRow (inpRow (fun k => x0 (ix3 0 0 k)) (fun l k => x1 (ix3 l 0 k)) l) (fun k => x2 (ix3 l j k)) (x3 (ix2 l j)) := by
  rw [val_main_v6_apply, val_main_v4_apply, val_main_v5_apply, ← v3_row]
  exact aff_at (val_main_v3 (F := Ideal) x0 x1) x2 x3 l j

/-- W_hr h + b_hr. -/
theorem v9_at : val_main_v9 (F := Ideal) x1 x4 x5 (ix3 l 0 j)
    = affRow (fun k => x1 (ix3 l 0 k)) (fun k => x4 (ix3 l j k)) (x5 (ix2 l j)) := by
  rw [val_main_v9_apply, val_main_v7_apply, val_main_v8_apply]
  exact aff_at x1 x4 x5 l j

/-- W_h1 h + b_h1. -/
theorem v19_at : val_main_v19 (F := Ideal) x1 x6 x7 (ix3 l 0 j)
    = affRow (fun k => x1 (ix3 l 0 k)) (fun k => x6 (ix3 l j k)) (x7 (ix2 l j)) := by
  rw [val_main_v19_apply, val_main_v17_apply, val_main_v18_apply]
  exact aff_at x1 x6 x7 l j

/-- W_x1 a + b_x1. -/
theorem v23_at : val_main_v23 (F := Ideal) x0 x1 x8 x9 (ix3 l 0 j)
    = affRow (inpRow (fun k => x0 (ix3 0 0 k)) (fun l k => x1 (ix3 l 0 k)) l) (fun k => x8 (ix3 l j k)) (x9 (ix2 l j)) := by
  rw [val_main_v23_apply, val_main_v21_apply, val_main_v22_apply, ← v3_row]
  exact aff_at (val_main_v3 (F := Ideal) x0 x1) x8 x9 l j

/-- W_iu a + b_iu. -/
theorem v28_at : val_main_v28 (F := Ideal) x0 x1 x10 x11 (ix3 l 0 j)
    = affRow (inpRow (fun k => x0 (ix3 0 0 k)) (fun l k => x1 (ix3 l 0 k)) l) (fun k => x10 (ix3 l j k)) (x11 (ix2 l j)) := by
  rw [val_main_v28_apply, val_main_v26_apply, val_main_v27_apply, ← v3_row]
  exact aff_at (val_main_v3 (F := Ideal) x0 x1) x10 x11 l j

/-- W_hu h + b_hu. -/
theorem v31_at : val_main_v31 (F := Ideal) x1 x12 x13 (ix3 l 0 j)
    = affRow (fun k => x1 (ix3 l 0 k)) (fun k => x12 (ix3 l j k)) (x13 (ix2 l j)) := by
  rw [val_main_v31_apply, val_main_v29_apply, val_main_v30_apply]
  exact aff_at x1 x12 x13 l j

/-! ### The gates and the cell -/

/-- The logistic function as the reference expands it: the constant 1.0 over 1.0 plus the exponential of the negation. -/
theorem sig_expanded (a : EReal) :
    FloatOps.hostDivf (F := Ideal) (φ := .f32) (FloatOps.ofBits .f32 0x3F800000#32)
        (FloatOps.addf (FloatOps.ofBits .f32 0x3F800000#32) (FloatOps.hostUnary .exp (FloatOps.hostNegf a)))
      = Cert.GruFc.sig a := by
  show Ideal.div (Ideal.ofBits .f32 0x3F800000#32) (Ideal.ofBits .f32 0x3F800000#32 + Ideal.exp (-a)) = Ideal.logistic a
  rw [ofBits_one_f32]
  rfl

/-- The reset gate. -/
theorem v16_at : val_main_v16 (F := Ideal) x0 x1 x2 x3 x4 x5 (ix3 l 0 j)
    = Cert.GruFc.sig (val_main_v6 (F := Ideal) x0 x1 x2 x3 (ix3 l 0 j) + val_main_v9 (F := Ideal) x1 x4 x5 (ix3 l 0 j)) := by
  rw [val_main_v16_apply, val_main_v15_apply, val_main_cst_0_apply, val_main_v14_apply, val_main_v13_apply,
    val_main_cst_apply, val_main_v12_apply, val_main_v11_apply, val_main_v10_apply]
  exact sig_expanded _

/-- The update gate. -/
theorem v38_at : val_main_v38 (F := Ideal) x0 x1 x10 x11 x12 x13 (ix3 l 0 j)
    = Cert.GruFc.sig (val_main_v28 (F := Ideal) x0 x1 x10 x11 (ix3 l 0 j) + val_main_v31 (F := Ideal) x1 x12 x13 (ix3 l 0 j)) := by
  rw [val_main_v38_apply, val_main_v37_apply, val_main_cst_2_apply, val_main_v36_apply, val_main_v35_apply,
    val_main_cst_1_apply, val_main_v34_apply, val_main_v33_apply, val_main_v32_apply]
  exact sig_expanded _

/-- The candidate: the hyperbolic tangent of the reset gate times the hidden affine row, plus the input affine row. -/
theorem v25_at : val_main_v25 (F := Ideal) x0 x1 x2 x3 x4 x5 x6 x7 x8 x9 (ix3 l 0 j)
    = Ideal.tanh (val_main_v16 (F := Ideal) x0 x1 x2 x3 x4 x5 (ix3 l 0 j) * val_main_v19 (F := Ideal) x1 x6 x7 (ix3 l 0 j)
        + val_main_v23 (F := Ideal) x0 x1 x8 x9 (ix3 l 0 j)) := by
  rw [val_main_v25_apply, val_main_v24_apply, val_main_v20_apply]
  rfl

end Stages

/-- The reference's new hidden state at layer `l`, coordinate `j`, is the specification's. -/
theorem newh_ref (x0 : (⟨S1x1x2048, .f32⟩ : BufTy).Contents (Elt Ideal)) (x1 : (⟨S8x1x2048, .f32⟩ : BufTy).Contents (Elt Ideal)) (x2 : (⟨S8x2048x2048, .f32⟩ : BufTy).Contents (Elt Ideal)) (x3 : (⟨S8x2048, .f32⟩ : BufTy).Contents (Elt Ideal)) (x4 : (⟨S8x2048x2048, .f32⟩ : BufTy).Contents (Elt Ideal)) (x5 : (⟨S8x2048, .f32⟩ : BufTy).Contents (Elt Ideal)) (x6 : (⟨S8x2048x2048, .f32⟩ : BufTy).Contents (Elt Ideal)) (x7 : (⟨S8x2048, .f32⟩ : BufTy).Contents (Elt Ideal)) (x8 : (⟨S8x2048x2048, .f32⟩ : BufTy).Contents (Elt Ideal)) (x9 : (⟨S8x2048, .f32⟩ : BufTy).Contents (Elt Ideal)) (x10 : (⟨S8x2048x2048, .f32⟩ : BufTy).Contents (Elt Ideal)) (x11 : (⟨S8x2048, .f32⟩ : BufTy).Contents (Elt Ideal)) (x12 : (⟨S8x2048x2048, .f32⟩ : BufTy).Contents (Elt Ideal)) (x13 : (⟨S8x2048, .f32⟩ : BufTy).Contents (Elt Ideal))
    (l : Fin 8) (j : Fin 2048) :
    val_main_v43 (F := Ideal) x0 x1 x2 x3 x4 x5 x6 x7 x8 x9 x10 x11 x12 x13 (ix3 l 0 j)
      = newH (fun k => x0 (ix3 0 0 k)) (fun l k => x1 (ix3 l 0 k))
          (fun l j k => x2 (ix3 l j k)) (fun l j k => x4 (ix3 l j k)) (fun l j k => x6 (ix3 l j k))
          (fun l j k => x8 (ix3 l j k)) (fun l j k => x10 (ix3 l j k)) (fun l j k => x12 (ix3 l j k))
          (fun l j => x3 (ix2 l j)) (fun l j => x5 (ix2 l j)) (fun l j => x7 (ix2 l j))
          (fun l j => x9 (ix2 l j)) (fun l j => x11 (ix2 l j)) (fun l j => x13 (ix2 l j)) l j := by
  rw [val_main_v43_apply, val_main_v41_apply, val_main_v42_apply, val_main_v40_apply, val_main_v39_apply,
    val_main_cst_3_apply, v25_at, v38_at, v16_at, v6_at, v9_at, v19_at, v23_at, v28_at, v31_at]
  show (Ideal.ofBits .f32 0x3F800000#32 - _) * _ + _ * _ = _
  rw [ofBits_one_f32]
  rfl

section Readout

variable (x0 : (⟨S1x1x2048, .f32⟩ : BufTy).Contents (Elt Ideal)) (x1 : (⟨S8x1x2048, .f32⟩ : BufTy).Contents (Elt Ideal))
  (x2 : (⟨S8x2048x2048, .f32⟩ : BufTy).Contents (Elt Ideal)) (x3 : (⟨S8x2048, .f32⟩ : BufTy).Contents (Elt Ideal))
  (x4 : (⟨S8x2048x2048, .f32⟩ : BufTy).Contents (Elt Ideal)) (x5 : (⟨S8x2048, .f32⟩ : BufTy).Contents (Elt Ideal))
  (x6 : (⟨S8x2048x2048, .f32⟩ : BufTy).Contents (Elt Ideal)) (x7 : (⟨S8x2048, .f32⟩ : BufTy).Contents (Elt Ideal))
  (x8 : (⟨S8x2048x2048, .f32⟩ : BufTy).Contents (Elt Ideal)) (x9 : (⟨S8x2048, .f32⟩ : BufTy).Contents (Elt Ideal))
  (x10 : (⟨S8x2048x2048, .f32⟩ : BufTy).Contents (Elt Ideal)) (x11 : (⟨S8x2048, .f32⟩ : BufTy).Contents (Elt Ideal))
  (x12 : (⟨S8x2048x2048, .f32⟩ : BufTy).Contents (Elt Ideal)) (x13 : (⟨S8x2048, .f32⟩ : BufTy).Contents (Elt Ideal))
  (x14 : (⟨S1000x2048, .f32⟩ : BufTy).Contents (Elt Ideal)) (x15 : (⟨S1000, .f32⟩ : BufTy).Contents (Elt Ideal))

/-! ### The read-out -/

/-- The word of -∞ denotes the bottom of the extended reals. -/
theorem ofBits_neg_inf_f32 : Ideal.ofBits .f32 0xFF800000#32 = ⊥ := by simp [Ideal.ofBits, Ideal.ieee]

/-- Lane k of the read-out's left operand: the last layer's new hidden state there, rectified. -/
theorem v47_at (k : Fin 2048) : val_main_v47 (F := Ideal) x0 x1 x2 x3 x4 x5 x6 x7 x8 x9 x10 x11 x12 x13 (ix2 0 k)
    = max (val_main_v43 (F := Ideal) x0 x1 x2 x3 x4 x5 x6 x7 x8 x9 x10 x11 x12 x13 (ix3 7 0 k)) 0 := by
  rw [val_main_v47_apply, val_main_v45_apply, val_main_v44_apply, val_main_v46_apply, val_main_cst_4_apply]
  have e : idx_main_v44 (idx_main_v45 (ix2 0 k)) = ix3 7 0 k := funext fun a => Fin.ext (by
    match a with
    | ⟨0, _⟩ => rfl
    | ⟨1, _⟩ => rfl
    | ⟨2, _⟩ => show (0 * 2048 + k.val) % 2048 = k.val; have := k.isLt; omega)
  rw [e]
  show max _ (Ideal.ofBits .f32 0x00000000#32) = _
  rw [Ideal.ofBits_zero_f32]

/-- Logit j: the rectified row against row j of the read-out's weights (the product contracts the transposed
    matrix's first axis), plus the bias entry j. -/
theorem v51_at (j : Fin 1000) : val_main_v51 (F := Ideal) x0 x1 x2 x3 x4 x5 x6 x7 x8 x9 x10 x11 x12 x13 x14 x15 (ix2 0 j)
    = logit (fun k => val_main_v43 (F := Ideal) x0 x1 x2 x3 x4 x5 x6 x7 x8 x9 x10 x11 x12 x13 (ix3 7 0 k)) (fun k => x14 (ix2 j k)) (x15 (ix1 j)) := by
  rw [val_main_v51_apply, val_main_v49_apply, val_main_v50_apply]
  unfold logit
  have e3 : idx_main_v50 (ix2 0 j) = ix1 j := funext fun a => by match a with | ⟨0, _⟩ => rfl
  rw [e3]
  refine congrArg (· + x15 (ix1 j)) (Finset.sum_congr rfl fun k _ => ?_)
  have e1 : lidx_main_v49 (ix2 0 j) k = ix2 0 k := funext fun a => by
    match a with | ⟨0, _⟩ => rfl | ⟨1, _⟩ => rfl
  have e2 : idx_main_v48 (ridx_main_v49 (ix2 0 j) k) = ix2 j k := funext fun a => by
    match a with | ⟨0, _⟩ => rfl | ⟨1, _⟩ => rfl
  rw [e1, val_main_v48_apply, e2, v47_at]

/-! ### The log-softmax -/

/-- The maximum reduce from -∞ over the 1000 lanes of a row is the fold of the maximum from the bottom. -/
theorem max_reduce (z : (⟨S1x1000, .f32⟩ : BufTy).Contents (Elt Ideal)) :
    Host.reduce (FloatOps.maximumf (F := Ideal) (φ := .f32)) z (val_main_call0_cst (F := Ideal)) reducesTo_S1x1000_S1_d1 h_S_ (ix1 0)
      = vmax (fun j : Fin 1000 => z (ix2 0 j)) := by
  have h : S1x1000.Reduces [1] S1 := by decide
  refine (Host.reduce_eq_fold_single (FloatOps.maximumf (F := Ideal) (φ := .f32)) z _ reducesTo_S1x1000_S1_d1 h h_S_ (ix1 0)).trans ?_
  have hf : (z ∘ h.lift (ix1 0)) = fun j : Fin 1000 => z (ix2 0 j) :=
    funext fun k => congrArg z (funext fun c => Fin.ext (by match c with | ⟨0, _⟩ => rfl | ⟨1, _⟩ => rfl))
  have e0 : val_main_call0_cst (F := Ideal) (Shape.Idx.first h_S_) = ⊥ := ofBits_neg_inf_f32
  rw [e0]
  unfold vmax
  exact congrArg (fun f => Finset.fold max (⊥ : EReal) f (Finset.univ : Finset (Fin 1000))) hf

/-- So the reference's maximum reduce is the maximum of the logits. -/
theorem max_at : val_main_call0_v0 (F := Ideal) x0 x1 x2 x3 x4 x5 x6 x7 x8 x9 x10 x11 x12 x13 x14 x15 (ix1 0)
    = vmax (fun j : Fin 1000 => val_main_v51 (F := Ideal) x0 x1 x2 x3 x4 x5 x6 x7 x8 x9 x10 x11 x12 x13 x14 x15 (ix2 0 j)) := by
  unfold val_main_call0_v0
  exact max_reduce _

/-- Every lane subtracts the same number: the maximum of the logits (the reference takes one more maximum with -∞,
    which changes nothing, and broadcasts it back over the lanes). -/
theorem shift_at (i : S1x1000.Idx) : val_main_call0_v4 (F := Ideal) x0 x1 x2 x3 x4 x5 x6 x7 x8 x9 x10 x11 x12 x13 x14 x15 i
    = vmax (fun j : Fin 1000 => val_main_v51 (F := Ideal) x0 x1 x2 x3 x4 x5 x6 x7 x8 x9 x10 x11 x12 x13 x14 x15 (ix2 0 j)) := by
  rw [val_main_call0_v4_apply, val_main_call0_v3_apply, val_main_call0_v2_apply, val_main_call0_v1_apply,
    val_main_call0_cst_0_apply]
  have e : idx_main_call0_v3 (idx_main_call0_v4 i) = ix1 0 := funext fun a => by match a with | ⟨0, _⟩ => rfl
  rw [e, max_at]
  show max (Ideal.ofBits .f32 0xFF800000#32) _ = _
  rw [ofBits_neg_inf_f32]
  exact max_bot_left _

/-- The sum reduce from 0 over the 1000 lanes: the sum of the exponentials of the shifted logits. -/
theorem sum_at : val_main_call0_v7 (F := Ideal) x0 x1 x2 x3 x4 x5 x6 x7 x8 x9 x10 x11 x12 x13 x14 x15 (ix1 0)
    = ∑ k : Fin 1000, Ideal.exp (val_main_v51 (F := Ideal) x0 x1 x2 x3 x4 x5 x6 x7 x8 x9 x10 x11 x12 x13 x14 x15 (ix2 0 k)
        - vmax (fun j : Fin 1000 => val_main_v51 (F := Ideal) x0 x1 x2 x3 x4 x5 x6 x7 x8 x9 x10 x11 x12 x13 x14 x15 (ix2 0 j))) := by
  rw [val_main_call0_v7_apply, val_main_call0_cst_1_apply]
  show Ideal.ofBits .f32 0x00000000#32 + _ = _
  rw [Ideal.ofBits_zero_f32, zero_add]
  refine Finset.sum_congr rfl fun k _ => ?_
  have e : idx_main_call0_v7 (ix1 0) k = ix2 0 k := funext fun a => by
    match a with | ⟨0, _⟩ => rfl | ⟨1, _⟩ => rfl
  rw [e, val_main_call0_v6_apply, val_main_call0_v5_apply, shift_at]
  rfl

/-- The result at lane j: the log-softmax of the logits there. -/
theorem v52_at (j : Fin 1000) : val_main_v52 (F := Ideal) x0 x1 x2 x3 x4 x5 x6 x7 x8 x9 x10 x11 x12 x13 x14 x15 (ix2 0 j)
    = logSoftmax (fun j : Fin 1000 => val_main_v51 (F := Ideal) x0 x1 x2 x3 x4 x5 x6 x7 x8 x9 x10 x11 x12 x13 x14 x15 (ix2 0 j)) j := by
  rw [val_main_v52_apply, val_main_call0_v5_apply, shift_at, val_main_call0_v10_apply, val_main_call0_v9_apply,
    val_main_call0_v8_apply]
  have e : idx_main_call0_v8 (idx_main_call0_v10 (ix2 0 j)) = ix1 0 := funext fun a => by match a with | ⟨0, _⟩ => rfl
  rw [e, sum_at]
  rfl

end Readout

/-- The reference's log-probability at lane `j` is the specification's, on the last layer's new hidden row. -/
theorem out_ref (x0 : (⟨S1x1x2048, .f32⟩ : BufTy).Contents (Elt Ideal)) (x1 : (⟨S8x1x2048, .f32⟩ : BufTy).Contents (Elt Ideal)) (x2 : (⟨S8x2048x2048, .f32⟩ : BufTy).Contents (Elt Ideal)) (x3 : (⟨S8x2048, .f32⟩ : BufTy).Contents (Elt Ideal)) (x4 : (⟨S8x2048x2048, .f32⟩ : BufTy).Contents (Elt Ideal)) (x5 : (⟨S8x2048, .f32⟩ : BufTy).Contents (Elt Ideal)) (x6 : (⟨S8x2048x2048, .f32⟩ : BufTy).Contents (Elt Ideal)) (x7 : (⟨S8x2048, .f32⟩ : BufTy).Contents (Elt Ideal)) (x8 : (⟨S8x2048x2048, .f32⟩ : BufTy).Contents (Elt Ideal)) (x9 : (⟨S8x2048, .f32⟩ : BufTy).Contents (Elt Ideal)) (x10 : (⟨S8x2048x2048, .f32⟩ : BufTy).Contents (Elt Ideal)) (x11 : (⟨S8x2048, .f32⟩ : BufTy).Contents (Elt Ideal)) (x12 : (⟨S8x2048x2048, .f32⟩ : BufTy).Contents (Elt Ideal)) (x13 : (⟨S8x2048, .f32⟩ : BufTy).Contents (Elt Ideal)) (x14 : (⟨S1000x2048, .f32⟩ : BufTy).Contents (Elt Ideal)) (x15 : (⟨S1000, .f32⟩ : BufTy).Contents (Elt Ideal))
    (j : Fin 1000) :
    val_main_v52 (F := Ideal) x0 x1 x2 x3 x4 x5 x6 x7 x8 x9 x10 x11 x12 x13 x14 x15 (ix2 0 j)
      = outLP (fun k => newH (fun k => x0 (ix3 0 0 k)) (fun l k => x1 (ix3 l 0 k))
          (fun l j k => x2 (ix3 l j k)) (fun l j k => x4 (ix3 l j k)) (fun l j k => x6 (ix3 l j k))
          (fun l j k => x8 (ix3 l j k)) (fun l j k => x10 (ix3 l j k)) (fun l j k => x12 (ix3 l j k))
          (fun l j => x3 (ix2 l j)) (fun l j => x5 (ix2 l j)) (fun l j => x7 (ix2 l j))
          (fun l j => x9 (ix2 l j)) (fun l j => x11 (ix2 l j)) (fun l j => x13 (ix2 l j)) 7 k)
          (fun j' k => x14 (ix2 j' k)) (fun j' => x15 (ix1 j')) j := by
  rw [v52_at]
  unfold outLP
  refine congrArg (fun z : Fin 1000 → EReal => logSoftmax z j) (funext fun j' => ?_)
  rw [v51_at]
  exact congrArg (fun r : Fin 2048 → EReal => logit r (fun k => x14 (ix2 j' k)) (x15 (ix1 j')))
    (funext fun k => newh_ref x0 x1 x2 x3 x4 x5 x6 x7 x8 x9 x10 x11 x12 x13 7 k)

end Cert.ReferenceIdeal.RefSpec

end
-- ==== Proof.lean ====
/-
  Eight gated recurrent cells and a log-softmax read-out: the tiled kernel program against the plain reference,
  over the extended reals.

  Both programs compute, for each of eight layers and each of 2048 hidden coordinates, one gated cell of that
  layer's input row and ORIGINAL hidden row (so the layers are independent), and then the log-softmax of 1000 logits
  of the rectified last new hidden row. The kernel program computes the cells 512 coordinates at a time over a grid of
  8 x 4 points; that is a tiling of the output coordinates, and each affine row is a finite sum whose value does not
  depend on how the outputs are grouped. Its read-out pads the 1000 logits to 1024 lanes and sets the 24 pad lanes
  to a constant the statement NAMES -∞; a lane at -∞ is the identity of the maximum, stays -∞ when the maximum is
  subtracted, and its exponential is 0, the identity of the sum, so the first 1000 lanes of the padded log-softmax
  are the log-softmax of the 1000 logits. No input needs to be finite for any of this: the precondition is not used.

  The specification is Proof/Spec.lean; the kernel program's two results are read off its run in
  Proof/KernelValue.lean (over Proof/Region0.lean and Proof/Region1.lean, one per region, and the run with its results
  named, Proof/RunResults.lean); the reference's in Proof/RefSpec.lean. Here they are joined, index by index.
-/
import proofs.«417925_j78761110274471_3_alg».proof.Defs
import proofs.«417925_j78761110274471_3_alg».proof.Proof.Gen.Kernel
import proofs.«417925_j78761110274471_3_alg».proof.Proof.Gen.Kernel.Skeleton
import proofs.«417925_j78761110274471_3_alg».proof.Proof.Gen.Kernel.Launch
import proofs.«417925_j78761110274471_3_alg».proof.Proof.Gen.Kernel.Points
import proofs.«417925_j78761110274471_3_alg».proof.Proof.Gen.Kernel.Frame
import proofs.«417925_j78761110274471_3_alg».proof.Proof.Gen.KernelIdeal
import proofs.«417925_j78761110274471_3_alg».proof.Proof.Gen.KernelIdeal.Skeleton
import proofs.«417925_j78761110274471_3_alg».proof.Proof.Gen.KernelIdeal.Launch
import proofs.«417925_j78761110274471_3_alg».proof.Proof.Gen.KernelIdeal.Points
import proofs.«417925_j78761110274471_3_alg».proof.Proof.Gen.KernelIdeal.Frame
import proofs.«417925_j78761110274471_3_alg».proof.Proof.Gen.ReferenceIdeal
import proofs.«417925_j78761110274471_3_alg».proof.Proof.Gen.Pre_finite_inputs
import proofs.«417925_j78761110274471_3_alg».proof.Proof.Gen.ReferenceIdeal.Run
import proofs.«417925_j78761110274471_3_alg».proof.Proof.Gen.ReferenceIdeal.Read
import proofs.«417925_j78761110274471_3_alg».proof.Proof.Spec
import proofs.«417925_j78761110274471_3_alg».proof.Proof.RunResults
import proofs.«417925_j78761110274471_3_alg».proof.Proof.KernelValue
import proofs.«417925_j78761110274471_3_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The one rewrite of the idealization: the pad lanes' fill constant is named, and the name denotes -∞. -/
theorem preserves : Cert.preserves_Kernel_KernelIdeal :=
  IdealRules.named_const.statement Cert.KernelIdeal.κ "neg_big" .f32 0xFF333332#32 ⊥ rfl

/-- An index of a [1,1000] array is (0, its lane). -/
theorem idx_1x1000 (i : (⟨2, ![1, 1000]⟩ : Shape).Idx) : i = ix2 (0 : Fin 1) (i 1 : Fin 1000) := by
  funext a
  match a with
  | ⟨0, _⟩ => exact Fin.ext (Nat.lt_one_iff.mp (i 0).isLt)
  | ⟨1, _⟩ => rfl

/-- An index of an [8,1,2048] array is (its layer, 0, its coordinate). -/
theorem idx_8x1x2048 (i : (⟨3, ![8, 1, 2048]⟩ : Shape).Idx) : i = ix3 (i 0 : Fin 8) (0 : Fin 1) (i 2 : Fin 2048) := by
  funext a
  match a with
  | ⟨0, _⟩ => rfl
  | ⟨1, _⟩ => exact Fin.ext (Nat.lt_one_iff.mp (i 1).isLt)
  | ⟨2, _⟩ => rfl

/-- From memories agreeing on the sixteen arguments both idealized programs end with the same two results: at every
    index each is the specification's value there. -/
theorem algebraic : Cert.algebraic_KernelIdeal_ReferenceIdeal := by
  intro m ρ m' ρ' _ hagree
  refine ⟨fun c => Cert.KernelIdeal.Gen.W9 (F := Ideal) m ρ c (Proc.devRef .tc Cert.KernelIdeal.main_v15),
    fun c => Cert.KernelIdeal.Gen.W9 (F := Ideal) m ρ c (Proc.devRef .tc Cert.KernelIdeal.main_v10),
    Cert.KernelIdeal.RunV.run_results (F := Ideal) m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · -- the log-probabilities, lane by lane
    obtain ⟨h0, h1, h2, h3, h4, h5, h6, h7, h8, h9, h10, h11, h12, h13, h14, h15⟩ := hagree c
    rw [Cert.ReferenceIdeal.Read.val_main_v52_eq, h0, h1, h2, h3, h4, h5, h6, h7, h8, h9, h10, h11, h12, h13, h14, h15]
    funext i
    obtain ⟨j, rfl⟩ : ∃ j : Fin 1000, i = ix2 (0 : Fin 1) j := ⟨i 1, idx_1x1000 i⟩
    exact (Cert.ReferenceIdeal.RefSpec.out_ref _ _ _ _ _ _ _ _ _ _ _ _ _ _ _ _ j).trans
      (Cert.KernelIdeal.KV.out_kernel m ρ c j).symm
  · -- the new hidden rows, layer by layer and coordinate by coordinate
    obtain ⟨h0, h1, h2, h3, h4, h5, h6, h7, h8, h9, h10, h11, h12, h13, h14, h15⟩ := hagree c
    rw [Cert.ReferenceIdeal.Read.val_main_v43_eq, h0, h1, h2, h3, h4, h5, h6, h7, h8, h9, h10, h11, h12, h13]
    funext i
    obtain ⟨l, j, rfl⟩ : ∃ (l : Fin 8) (j : Fin 2048), i = ix3 l (0 : Fin 1) j := ⟨i 0, i 2, idx_8x1x2048 i⟩
    exact (Cert.ReferenceIdeal.RefSpec.newh_ref _ _ _ _ _ _ _ _ _ _ _ _ _ _ l j).trans
      (Cert.KernelIdeal.KV.newh_kernel m ρ c l j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
